-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 20
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x8192, .f32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.K.Kit.lean ====
/-
  The margin-loss kernel's launch, first part: what the region finds and how its body is cased.

  The program normalises the rows of the embedding matrix on the host, hands the normalised matrix to the
  kernel TWICE (a row tile and a column tile of the same array), and the kernel walks an 8 x 8 grid of
  1024 x 1024 similarity tiles: at column step 0 it clears a 1024 x 1 scratch accumulator, at every step it
  adds the tile's row sums of the margin loss to it, and at column step 7 it copies the accumulator to the
  output block of the current row tile. Here: the buffer contents when the region is entered (the host
  operations before it applied to the launch memory), that the two argument arrays are untouched by those
  operations, each input window's block, the two branch conditions as predicates on the grid point decided
  over the 64 points, and where the output window is idle.
-/
import proofs.«159711_j34565896798668_1_alg».proof.Proof.Gen.Kernel.Launch
import proofs.«159711_j34565896798668_1_alg».proof.Proof.Gen.Kernel.Skeleton
import proofs.«159711_j34565896798668_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core `c`'s buffer contents when the region is entered: the row norms, the clamp, the quotient, the rounding
    to bf16 and the two reshapes of the labels applied to the launch memory. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two host stretches, the region, and the final sum and quotient: it reduces to the region
    continued by the last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No host operation before the region writes the embedding matrix. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the label vector. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the
    pipeline does not fetch, the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- "This is the first column step": the accumulator is cleared. -/
abbrev cond0_0 (i : grid0.Coords) : Prop := (Scalar.cmpi .ne (Scalar.extui (Scalar.cmpi .eq (BitVec.ofNat 32 (i 1).val) 0#32)) 0#32) = 1#1
/-- It holds at the points whose column step is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column step": the accumulator is copied to the output block. -/
abbrev cond0_1 (i : grid0.Coords) : Prop := k0_cond2 i = 1#1
/-- It holds at the points whose column step is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column step the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column step it is live. -/
theorem liveAt0_4 : ∀ t : Fin cfg0.N, cond0_1 (grid0.coords t) → cfg0.idle 4 (grid0.coords t) = false := by decide +kernel

/-! ## The memrefs the body is called with -/

abbrev VO0_4 : View sig .tc .vmem S1024x1 .f32 := (Memref.whole cc0_stg4_0 : Memref sig .tc .vmem S1024x1 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1024x1 .f32 := Memref.whole cc0_scratch0
abbrev VS0_0 : View sig .tc .vmem S1024x1 .f32 := scM0_0.view

/-- The scoped buffers the pipeline does not stage are the accumulator alone, as a memref owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.K.RunA.lean ====
/-
  The kernel body at a point of the FIRST column step (the accumulator is cleared, then the tile's row sums
  are added to it; the output block is not touched): the body's triple on any whole staging memrefs, the
  stores it leaves in the accumulator found by running it.
-/
import proofs.«159711_j34565896798668_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first column step: from the four input blocks at `x0 … x3`, the output buffer at `xi4` and the
    accumulator at anything, the body runs to the inputs and the output buffer as they were and the accumulator
    with the pieces `LS0` written. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S1024x512 .bf16) (x2 : Vec F S1024x1 .i32) (x3 : Vec F S1x1024 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__margin_loss_kernel i arg2 harg2 arg3 harg3 arg4 harg4 arg5 harg5 arg6 harg6 arg7 harg7) K } := by
  refine ⟨[], ?_, fun xi4 E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The kernel body at a point of a MIDDLE column step (neither the first nor the last: the tile's row sums are
  added to the accumulator as the step before left it; the output block is not touched).
-/
import proofs.«159711_j34565896798668_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle column step: from the four input blocks, the output buffer at `xi4` and the accumulator at `xs0`,
    the body runs to the same with the accumulator's pieces `LS0` written. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S1024x512 .bf16) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__margin_loss_kernel i arg2 harg2 arg3 harg3 arg4 harg4 arg5 harg5 arg6 harg6 arg7 harg7) K } := by
  refine ⟨[], ?_, fun xi4 E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The kernel body at a point of the LAST column step (the tile's row sums are added to the accumulator, and the
  accumulator is copied whole to the output block, which the pipeline then writes back).
-/
import proofs.«159711_j34565896798668_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last column step: from the four input blocks, the output buffer at anything and the accumulator at
    `xs0`, the body runs to the inputs as they were, the output buffer with the pieces `L4` written and the
    accumulator with `LS0` written. -/
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__margin_loss_kernel i arg2 harg2 arg3 harg3 arg4 harg4 arg5 harg5 arg6 harg6 arg7 harg7) K } := by
  refine ⟨?_, ?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Body.lean ====
/-
  The margin-loss kernel's launch, second part: what the accumulator and the output block hold after each of
  the 64 grid points, the pipeline's proof data, and the body obligation.

  The accumulator after a point is what the point's run stored into it: at the first column step the tile's
  row sums over a cleared accumulator, at the other steps the tile's row sums over what the point before left.
  The output block is stored only at the last column step (a copy of the accumulator) and is idle elsewhere.
  The normalised matrix is handed to the kernel through two windows; the two read it at the two halves of the
  full share.
-/
import proofs.«159711_j34565896798668_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S1024x512 .bf16) (x2 : Vec F S1024x1 .i32) (x3 : Vec F S1x1024 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What the first column step leaves in the accumulator. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S1024x512 .bf16) (x2 : Vec F S1024x1 .i32) (x3 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S1024x512 .bf16) (x2 : Vec F S1024x1 .i32) (x3 : Vec F S1x1024 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What a middle column step leaves in the accumulator. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S1024x512 .bf16) (x2 : Vec F S1024x1 .i32) (x3 : Vec F S1x1024 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What the last column step leaves in the output block's staging buffer. -/
def out0_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What the last column step leaves in the accumulator. -/
def sout0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The conditions at a point, from its column step -/

theorem c0_of (t : Fin cfg0.N) (h : t.val % 8 = 0) : cond0_0 (grid0.coords t) := (hcond0_0 t).mpr h
theorem nc0_of (t : Fin cfg0.N) (h : ¬t.val % 8 = 0) : ¬cond0_0 (grid0.coords t) := fun h' => h ((hcond0_0 t).mp h')
theorem c1_of (t : Fin cfg0.N) (h : t.val % 8 = 7) : cond0_1 (grid0.coords t) := (hcond0_1 t).mpr h
theorem nc1_of (t : Fin cfg0.N) (h : ¬t.val % 8 = 7) : ¬cond0_1 (grid0.coords t) := fun h' => h ((hcond0_1 t).mp h')
theorem nc1_of0 (t : Fin cfg0.N) (h : t.val % 8 = 0) : ¬cond0_1 (grid0.coords t) := nc1_of t (by omega)

/-! ## What the output block and the accumulator hold after each point -/

/-- After the body at position `n`: the output block's staging buffer (only meaningful at a last column step;
    elsewhere the window is idle and the component is a filler nothing reads) and the accumulator. -/
def outsAt0 (c : Dev nD) : (n : ℕ) → n < cfg0.N → Vec F S1024x1 .f32 × Vec F S1024x1 .f32
  | 0, hn =>
    (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩))
  | n + 1, hn =>
    if h0 : (n + 1) % 8 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (c1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (c1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (nc1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (nc1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first column step. -/
theorem outsAt0_A (c : Dev nD) (t : Fin cfg0.N) (h0 : t.val % 8 = 0) :
    outsAt0 m c t.val t.isLt =
      (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (c0_of t h0) (nc1_of0 t h0) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (c0_of t h0) (nc1_of0 t h0) (iblk m c 0 t) (iblk m c 1 t) (iblk m c 2 t) (iblk m c 3 t)) := by
  obtain ⟨n, hn⟩ := t
  cases n with
  | zero => exact rfl
  | succ n => exact (dif_pos h0).trans rfl

/-- At a middle column step, over what the point before left. -/
theorem outsAt0_B (c : Dev nD) (t : Fin cfg0.N) (h0 : ¬t.val % 8 = 0) (h1 : ¬t.val % 8 = 7) :
    outsAt0 m c t.val t.isLt =
      (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (nc1_of t h1) (iblk m c 0 t) (iblk m c 1 t) (iblk m c 2 t) (iblk m c 3 t) (outsAt0 m c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (nc1_of t h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column step, over what the point before left. -/
theorem outsAt0_C (c : Dev nD) (t : Fin cfg0.N) (h0 : ¬t.val % 8 = 0) (h1 : t.val % 8 = 7) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) (outsAt0 m c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the accumulator at anything before the first point, afterwards at
    what the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`: the arrays as the region finds them; after the body each input's
    buffer at its block and the output's at `outsAt0`; the accumulator tracked by `PhiS`; the normalised matrix
    read by its two windows at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the column step says which case the point is
    in; the invariant hands the body the accumulator at what the point before left (at anything at the very
    first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · rw [Dat.leavesExact_idle (dats m 0 c) 4 t (idleAt0_4 t (nc1_of0 t h0)) (noFlush0_4 t (nc1_of0 t h0))]
    rw [outsAt0_A m c t h0]
    unfold sout0_A_0; (try dsimp only)
    have hΦ : (dats m 0 c).Φ t.castSucc ⊢ (iprop(∃ d, owns (c : Thread nD τ) scM0_0 fullShare d) : sProp 𝕄) := by
      rw [PhiS_castSucc m c t]
      by_cases hz : t.val = 0
      · rw [PhiS_zero m c _ _ hz]
      · rw [PhiS_pos m c _ _ hz]; iintro H; iexists _; iexact H
    iintro ⟨HS0, Ho, ⟨%d0, H0⟩, ⟨%d1, H1⟩, ⟨%d2, H2⟩, ⟨%d3, H3⟩, ⟨%d4, H4⟩⟩
    ihave HS0 := hΦ $$ HS0
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) (c0_of t h0) (nc1_of0 t h0) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t (c1_of t h1)], after0_4]
      rw [outsAt0_C m c t h0 h1]
      unfold out0_C_4 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (nc1_of t h1)) (noFlush0_4 t (nc1_of t h1))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (nc1_of t h1) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- The accumulator at anything is the invariant before the first point. -/
theorem hin (c : Dev nD) : (iprop(∃ d, owns (c : Thread nD τ) scM0_0 fullShare d) : sProp 𝕄) ⊢ (dats m 0 c).Φ 0 := by
  rw [show (dats m 0 c).Φ 0 = PhiS m c 0 (Nat.zero_le _) from rfl, PhiS_zero m c 0 _ rfl]

/-- After the last point the accumulator's contents are forgotten. -/
theorem hout (c : Dev nD) : (dats m 0 c).Φ (Fin.last cfg0.N) ⊢ (iprop(∃ d, owns (c : Thread nD τ) scM0_0 fullShare d) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega)]
  iintro H; iexists _; iexact H

end Cert.Kernel.Hand

end
-- ==== Proof.K.TailVal.lean ====
/-
  What the last host stretch makes of the array of row sums.
-/
import proofs.«159711_j34565896798668_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sum of the 8192 x 1 array of row sums over an initial zero, divided by the number of pairs. -/
def tailVal (X : (⟨S8192x1, .f32⟩ : BufTy).Contents (Elt F)) : (⟨S_, .f32⟩ : BufTy).Contents (Elt F) :=
  Host.divf (Host.reduceAdd X (constant S_ .f32 0x00000000#32) reducesTo_S8192x1_S_d0_1 h_S_) (constant S_ .f32 0x4C800000#32)

end Cert.Kernel.Hand

end
-- ==== Proof.K.Launch.lean ====
/-
  The margin-loss kernel's launch, third part: the run of the whole program.

  The launch hands the pipeline the four arrays its windows read or write; the normalised matrix, read by two
  windows, is dealt to them in the two halves of its full share. The accumulator enters the region's invariant at
  anything and leaves it forgotten. After the region the host sums the 8192 x 1 array of row sums over an initial
  zero and divides by the number of pairs: the four operations of that stretch run on the output array as the
  region left it and on their own buffers, everything else passing by. Every weakly fair execution terminates, the
  two argument arrays end as launched, and the result buffer ends at the quotient of the sum of the output array as
  the pipeline's write-backs leave it.
-/
import proofs.«159711_j34565896798668_1_alg».proof.Proof.K.Body
import proofs.«159711_j34565896798668_1_alg».proof.Proof.K.TailVal
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: the buffers behind them, and the pipeline's holdings of them -/

/-- The distinct buffers behind the five windows' arrays are four. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v5) ↦{fullShare} Vv main_v5) ∗ (((c : Thread nD τ).loc main_v6) ↦{fullShare} Vv main_v6) ∗ (((c : Thread nD τ).loc main_v7) ↦{fullShare} Vv main_v7) ∗ (((c : Thread nD τ).loc main_v8) ↦{fullShare} Vv main_v8)) := by
  unfold Pipeline.arrBufs
  exact Idealize.SL.BI.bigSep_eq_bigSepL_of_eq [main_v5, main_v6, main_v7, main_v8] (by decide) (by decide) _

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The pipeline's holdings of its arrays, window by window: the normalised matrix in two halves. -/
theorem arrays0_eq (c : Dev nD) (Fv : (w : Fin cfg0.W) → Buf (Elt F) ((cfg0.win w).arr.view.loc (c : Thread nD τ))) :
    ((dats m 0 c).arrays Fv : sProp 𝕄)
      = iprop((((c : Thread nD τ).loc main_v5) ↦{fullShare.left} Fv 0) ∗ (((c : Thread nD τ).loc main_v5) ↦{fullShare.right} Fv 1) ∗ (((c : Thread nD τ).loc main_v6) ↦{fullShare} Fv 2) ∗ (((c : Thread nD τ).loc main_v7) ↦{fullShare} Fv 3) ∗ (((c : Thread nD τ).loc main_v8) ↦{fullShare} Fv 4)) := by
  unfold Dat.arrays
  rw [bigSep_W0, share0, share1, share2, share3, share4,
    (arr_whole0 0).set_eq_univ, (arr_whole0 2).set_eq_univ, (arr_whole0 3).set_eq_univ, (arr_whole0 4).set_eq_univ]

/-- Dealing the buffers to the windows at the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H5, H6, H7, H8⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  iexact H8

/-! ## The host stretch after the region -/

/-- The buffer contents when the region is left: the output array as the write-backs leave it, every other buffer
    as the region found it. -/
def Wt (c : Dev nD) : Valuation τ sig (Elt F) :=
  Function.update (V0 m c) (Proc.devRef .tc main_v8) ((dats m 0 c).arrAt 4 cfg0.N)
/-- And after the last host stretch. -/
def Vfin (c : Dev nD) : Valuation τ sig (Elt F) := StableHlo.after hostOps1 (Wt m c)

theorem Wt_v8 (c : Dev nD) : Wt m c (Proc.devRef .tc main_v8) = (dats m 0 c).arrAt 4 cfg0.N := by
  unfold Wt; exact Function.update_self _ _ _
theorem Wt_ne (c : Dev nD) {r : Ref sig .tc} (h : r ≠ main_v8) : Wt m c (Proc.devRef .tc r) = V m c r := by
  unfold Wt; exact Function.update_of_ne (StableHlo.devRef_ne_of_ne h) _ _

/-- The buffers the last stretch touches. -/
abbrev tailRefsL : List (Ref sig .tc) := [main_v8, main_cst_0, main_v9, main_cst_1, main_v10]
abbrev tailSet : Finset (DevRef τ sig) := (tailRefsL.map (Proc.devRef (τ := τ) .tc)).toFinset

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem held_tail (c : Dev nD) (W : Valuation τ sig (Elt F)) :
    (StableHlo.held (c : Thread nD τ) tailSet W : sProp 𝕄)
      = iprop((((c : Thread nD τ).loc main_v8) ↦{fullShare} W (Proc.devRef .tc main_v8)) ∗ (((c : Thread nD τ).loc main_cst_0) ↦{fullShare} W (Proc.devRef .tc main_cst_0)) ∗ (((c : Thread nD τ).loc main_v9) ↦{fullShare} W (Proc.devRef .tc main_v9)) ∗ (((c : Thread nD τ).loc main_cst_1) ↦{fullShare} W (Proc.devRef .tc main_cst_1)) ∗ (((c : Thread nD τ).loc main_v10) ↦{fullShare} W (Proc.devRef .tc main_v10))) := by
  unfold StableHlo.held
  exact Idealize.SL.BI.bigSep_eq_bigSepL_of_eq (tailRefsL.map (Proc.devRef (τ := τ) .tc)) rfl (by decide) _

/-- The stretch does not write the output array. -/
theorem Vfin_v8 (c : Dev nD) : Vfin m c (Proc.devRef .tc main_v8) = (dats m 0 c).arrAt 4 cfg0.N := by
  unfold Vfin
  rw [StableHlo.after_of_forall_not_mem (b := Proc.devRef .tc main_v8) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_v8]

/-- The result buffer after the stretch: the quotient of the sum of the output array. -/
theorem Vfin_v10 (c : Dev nD) : Vfin m c (Proc.devRef .tc main_v10) = tailVal ((dats m 0 c).arrAt 4 cfg0.N) := by
  unfold Vfin tailVal
  simp only [hostOps1]
  after_results
  rw [Wt_v8]

/-- What bypasses the region, after the last stretch: the four buffers the stretch writes at their new contents. -/
def Zfin (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_call0_v0) ↦{fullShare} V m c main_call0_v0) ∗ (((c : Thread nD τ).loc main_call0_cst) ↦{fullShare} V m c main_call0_cst) ∗ (((c : Thread nD τ).loc main_call0_v1) ↦{fullShare} V m c main_call0_v1) ∗ (((c : Thread nD τ).loc main_call0_v2) ↦{fullShare} V m c main_call0_v2) ∗ (((c : Thread nD τ).loc main_v0) ↦{fullShare} V m c main_v0) ∗ (((c : Thread nD τ).loc main_cst) ↦{fullShare} V m c main_cst) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_v4) ↦{fullShare} V m c main_v4) ∗ (((c : Thread nD τ).loc main_cst_0) ↦{fullShare} Vfin m c (Proc.devRef .tc main_cst_0)) ∗ (((c : Thread nD τ).loc main_v9) ↦{fullShare} Vfin m c (Proc.devRef .tc main_v9)) ∗ (((c : Thread nD τ).loc main_cst_1) ↦{fullShare} Vfin m c (Proc.devRef .tc main_cst_1)) ∗ (((c : Thread nD τ).loc main_v10) ↦{fullShare} Vfin m c (Proc.devRef .tc main_v10)))

set_option maxHeartbeats 1600000 in
/-- The last stretch, from the region's exit: it takes the output array and its own four buffers, leaves the output
    array as it was and hands everything back. -/
theorem htail (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ (Pipeline.chain [StableHlo.seq hostOps1]) Q' := by
  have h := Pipeline.wp_seqs_then (Ix := Unit) (Name := ℕ) (U := UR sig nD τ) (Lvl := ℕ) (pcfgs (F := F)) defs₀ Variants.none c tailSet [] [hostOps1] (K := Q') tail_sub tail_fresh (Wt m c)
  rw [List.flatten_cons, List.flatten_nil, List.append_nil, Pipeline.chain_nil, wp_pure, show StableHlo.after hostOps1 (Wt m c) = Vfin m c from rfl,
    held_tail, held_tail, Vfin_v8, Wt_v8, Wt_ne m c (by decide : main_cst_0 ≠ main_v8), Wt_ne m c (by decide : main_v9 ≠ main_v8),
    Wt_ne m c (by decide : main_cst_1 ≠ main_v8), Wt_ne m c (by decide : main_v10 ≠ main_v8)] at h
  rw [arrays0_eq, unscopedRest0_eq]
  unfold Zfin
  rw [show Pipeline.chain [StableHlo.seq (hostOps1 (F := F))] = Pipeline.chain (([hostOps1] : List (List (HloOp τ sig (Elt F)))).map StableHlo.seq ++ []) from rfl]
  iintro ⟨Hk, Hb, ⟨A0, A1, A2, A3, A4⟩, ⟨R0, R1, R2, R3, R4, R5, R6, R7, R8, R9, R10, R11, R12, R13, R14, R15⟩⟩
  iapply h $$ [Hb A4 R12 R13 R14 R15]
  · isplitl [Hb]; · iexact Hb
    isplitl [A4]; · iexact A4
    isplitl [R12]; · iexact R12
    isplitl [R13]; · iexact R13
    isplitl [R14]; · iexact R14
    iexact R15
  iintro ⟨Hb, A4, R12, R13, R14, R15⟩
  imodintro
  iapply Hk
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

/-! ## The run -/

/-- The rounds library's launch element: every staging cell's owner at round 0 and a duty token for every
    transfer the pipeline issues. -/
def u₀ : UR sig nD τ := initOf (Pipeline.cells (nD := nD) (τ := τ) cfgs cellOf_inj) (Pipeline.launchToks (nD := nD) (τ := τ) cfgs cellOf_inj)

/-- Nothing of the unscoped rest enters the region. -/
theorem hX (c : Dev nD) :
    (Pipeline.unscopedRestP (Ix := Unit) (Name := ℕ) (U := UR sig nD τ) (Lvl := ℕ) Pipeline.Prefetch.none spec0 c (V m c) : sProp 𝕄)
      ⊢ iprop(emp ∗ Pipeline.unscopedRest spec0 c (V m c)) := by
  rw [Pipeline.unscopedRestP_none]
  iintro H; isplitr; · iempintro
  iexact H

/-- The accumulator, at anything, is the invariant before the first point. -/
theorem hin' (c : Dev nD) (T : sProp 𝕄) :
    iprop(emp ∗ T ∗ Pipeline.scopedRest (Ix := Unit) (Name := ℕ) (U := UR sig nD τ) (Lvl := ℕ) (Val := Elt F) spec0 c) ⊢ (dats m 0 c).Φ 0 := by
  rw [scopedRest0_owns]
  iintro ⟨-, -, H⟩
  iapply (hin m c); iexact H

/-- And is given back after the last. -/
theorem hout' (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [scopedRest0_owns]
  refine (hout m c).trans ?_
  iintro H; isplitr; · iempintro
  iexact H

/-- What a final state holds: the result buffer at the quotient, the two argument arrays as launched. -/
def QY (c : Dev nD) (s : MemSt nD τ sig (Elt F)) : Prop :=
  s.mem ((c.tc : Thread nD τ).loc main_v10) = tailVal ((dats m 0 c).arrAt 4 cfg0.N)
    ∧ s.mem ((c.tc : Thread nD τ).loc main_arg0) = m ((c.tc : Thread nD τ).loc main_arg0)
    ∧ s.mem ((c.tc : Thread nD τ).loc main_arg1) = m ((c.tc : Thread nD τ).loc main_arg1)

theorem hY (c : Dev nD) (s' : Phys nD τ sig (Elt F)) :
    iprop(emp ∗ Zfin m c ∗ SI s') ⊢ (|={Set.univ}=> iprop(⌜QY m c s'.mem⌝ ∗ SI s') : sProp 𝕄) := by
  unfold Zfin
  iintro ⟨-, ⟨R0, R1, R2, R3, R4, R5, R6, R7, R8, R9, R10, R11, R12, R13, R14, R15⟩, HSI⟩
  icombine HSI R0 gives %h0
  icombine HSI R1 gives %h1
  icombine HSI R15 gives %h15
  imodintro
  isplitr
  · ipureintro
    exact ⟨(Buf.eq_of_forall_mem_univ h15).trans (Vfin_v10 m c), (Buf.eq_of_forall_mem_univ h0).trans (V_main_arg0 m c), (Buf.eq_of_forall_mem_univ h1).trans (V_main_arg1 m c)⟩
  iexact HSI

set_option backward.isDefEq.respectTransparency.types false in
/-- At the compiled mesh, for any float values, from any memory with zero counters: every weakly fair execution of
    @main terminates, the result buffer ends at the quotient of the sum of the output array as the pipeline's
    write-backs leave it, and the two argument arrays end as launched. -/
theorem run_main : θ_run (defs (F := F)) (onTc (τ := τ) (main (F := F))) (s₀ m ρ) (fun r => ∀ c : Dev nD, QY m c r.2) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRest spec0 c (V m c)) (Z' := Zfin m)
    (hX := hX m) (hin := fun c => hin' m c _) (hout := hout' m)
    (htail := htail m) (QY := QY m) (hY := hY m)
    (hQ := fun s h c => (h c).2.2)

/-- THE FRAME: every weakly fair execution terminates, nothing faults, and the two argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Kit.lean ====
/-
  The margin-loss kernel's launch, first part: what the region finds and how its body is cased.

  The program normalises the rows of the embedding matrix on the host, hands the normalised matrix to the
  kernel TWICE (a row tile and a column tile of the same array), and the kernel walks an 8 x 8 grid of
  1024 x 1024 similarity tiles: at column step 0 it clears a 1024 x 1 scratch accumulator, at every step it
  adds the tile's row sums of the margin loss to it, and at column step 7 it copies the accumulator to the
  output block of the current row tile. Here: the buffer contents when the region is entered (the host
  operations before it applied to the launch memory), that the two argument arrays are untouched by those
  operations, each input window's block, the two branch conditions as predicates on the grid point decided
  over the 64 points, and where the output window is idle.
-/
import proofs.«159711_j34565896798668_1_alg».proof.Proof.Gen.KernelIdeal.Launch
import proofs.«159711_j34565896798668_1_alg».proof.Proof.Gen.KernelIdeal.Skeleton
import proofs.«159711_j34565896798668_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core `c`'s buffer contents when the region is entered: the row norms, the clamp, the quotient, the rounding
    to bf16 and the two reshapes of the labels applied to the launch memory. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two host stretches, the region, and the final sum and quotient: it reduces to the region
    continued by the last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No host operation before the region writes the embedding matrix. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- Nor the label vector. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where the
    pipeline does not fetch, the block index has not moved and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- "This is the first column step": the accumulator is cleared. -/
abbrev cond0_0 (i : grid0.Coords) : Prop := (Scalar.cmpi .ne (Scalar.extui (Scalar.cmpi .eq (BitVec.ofNat 32 (i 1).val) 0#32)) 0#32) = 1#1
/-- It holds at the points whose column step is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column step": the accumulator is copied to the output block. -/
abbrev cond0_1 (i : grid0.Coords) : Prop := k0_cond2 i = 1#1
/-- It holds at the points whose column step is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column step the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column step it is live. -/
theorem liveAt0_4 : ∀ t : Fin cfg0.N, cond0_1 (grid0.coords t) → cfg0.idle 4 (grid0.coords t) = false := by decide +kernel

/-! ## The memrefs the body is called with -/

abbrev VO0_4 : View sig .tc .vmem S1024x1 .f32 := (Memref.whole cc0_stg4_0 : Memref sig .tc .vmem S1024x1 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1024x1 .f32 := Memref.whole cc0_scratch0
abbrev VS0_0 : View sig .tc .vmem S1024x1 .f32 := scM0_0.view

/-- The scoped buffers the pipeline does not stage are the accumulator alone, as a memref owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KI.RunA.lean ====
/-
  The kernel body at a point of the FIRST column step (the accumulator is cleared, then the tile's row sums
  are added to it; the output block is not touched): the body's triple on any whole staging memrefs, the
  stores it leaves in the accumulator found by running it.
-/
import proofs.«159711_j34565896798668_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first column step: from the four input blocks at `x0 … x3`, the output buffer at `xi4` and the
    accumulator at anything, the body runs to the inputs and the output buffer as they were and the accumulator
    with the pieces `LS0` written. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S1024x512 .bf16) (x2 : Vec F S1024x1 .i32) (x3 : Vec F S1x1024 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__margin_loss_kernel i arg2 harg2 arg3 harg3 arg4 harg4 arg5 harg5 arg6 harg6 arg7 harg7) K } := by
  refine ⟨[], ?_, fun xi4 E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The kernel body at a point of a MIDDLE column step (neither the first nor the last: the tile's row sums are
  added to the accumulator as the step before left it; the output block is not touched).
-/
import proofs.«159711_j34565896798668_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a middle column step: from the four input blocks, the output buffer at `xi4` and the accumulator at `xs0`,
    the body runs to the same with the accumulator's pieces `LS0` written. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S1024x512 .bf16) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__margin_loss_kernel i arg2 harg2 arg3 harg3 arg4 harg4 arg5 harg5 arg6 harg6 arg7 harg7) K } := by
  refine ⟨[], ?_, fun xi4 E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The kernel body at a point of the LAST column step (the tile's row sums are added to the accumulator, and the
  accumulator is copied whole to the output block, which the pipeline then writes back).
-/
import proofs.«159711_j34565896798668_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last column step: from the four input blocks, the output buffer at anything and the accumulator at
    `xs0`, the body runs to the inputs as they were, the output buffer with the pieces `L4` written and the
    accumulator with `LS0` written. -/
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__margin_loss_kernel i arg2 harg2 arg3 harg3 arg4 harg4 arg5 harg5 arg6 harg6 arg7 harg7) K } := by
  refine ⟨?_, ?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Body.lean ====
/-
  The margin-loss kernel's launch, second part: what the accumulator and the output block hold after each of
  the 64 grid points, the pipeline's proof data, and the body obligation.

  The accumulator after a point is what the point's run stored into it: at the first column step the tile's
  row sums over a cleared accumulator, at the other steps the tile's row sums over what the point before left.
  The output block is stored only at the last column step (a copy of the accumulator) and is idle elsewhere.
  The normalised matrix is handed to the kernel through two windows; the two read it at the two halves of the
  full share.
-/
import proofs.«159711_j34565896798668_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S1024x512 .bf16) (x2 : Vec F S1024x1 .i32) (x3 : Vec F S1x1024 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What the first column step leaves in the accumulator. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S1024x512 .bf16) (x2 : Vec F S1024x1 .i32) (x3 : Vec F S1x1024 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S1024x512 .bf16) (x2 : Vec F S1024x1 .i32) (x3 : Vec F S1x1024 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What a middle column step leaves in the accumulator. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S1024x512 .bf16) (x2 : Vec F S1024x1 .i32) (x3 : Vec F S1x1024 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What the last column step leaves in the output block's staging buffer. -/
def out0_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What the last column step leaves in the accumulator. -/
def sout0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The conditions at a point, from its column step -/

theorem c0_of (t : Fin cfg0.N) (h : t.val % 8 = 0) : cond0_0 (grid0.coords t) := (hcond0_0 t).mpr h
theorem nc0_of (t : Fin cfg0.N) (h : ¬t.val % 8 = 0) : ¬cond0_0 (grid0.coords t) := fun h' => h ((hcond0_0 t).mp h')
theorem c1_of (t : Fin cfg0.N) (h : t.val % 8 = 7) : cond0_1 (grid0.coords t) := (hcond0_1 t).mpr h
theorem nc1_of (t : Fin cfg0.N) (h : ¬t.val % 8 = 7) : ¬cond0_1 (grid0.coords t) := fun h' => h ((hcond0_1 t).mp h')
theorem nc1_of0 (t : Fin cfg0.N) (h : t.val % 8 = 0) : ¬cond0_1 (grid0.coords t) := nc1_of t (by omega)

/-! ## What the output block and the accumulator hold after each point -/

/-- After the body at position `n`: the output block's staging buffer (only meaningful at a last column step;
    elsewhere the window is idle and the component is a filler nothing reads) and the accumulator. -/
def outsAt0 (c : Dev nD) : (n : ℕ) → n < cfg0.N → Vec F S1024x1 .f32 × Vec F S1024x1 .f32
  | 0, hn =>
    (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (c0_of ⟨0, hn⟩ (Nat.zero_mod _)) (nc1_of0 ⟨0, hn⟩ (Nat.zero_mod _)) (iblk m c 0 ⟨0, hn⟩) (iblk m c 1 ⟨0, hn⟩) (iblk m c 2 ⟨0, hn⟩) (iblk m c 3 ⟨0, hn⟩))
  | n + 1, hn =>
    if h0 : (n + 1) % 8 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (c0_of ⟨n + 1, hn⟩ h0) (nc1_of0 ⟨n + 1, hn⟩ h0) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (c1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (c1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (nc1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (nc0_of ⟨n + 1, hn⟩ h0) (nc1_of ⟨n + 1, hn⟩ h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first column step. -/
theorem outsAt0_A (c : Dev nD) (t : Fin cfg0.N) (h0 : t.val % 8 = 0) :
    outsAt0 m c t.val t.isLt =
      (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (c0_of t h0) (nc1_of0 t h0) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) (c0_of t h0) (nc1_of0 t h0) (iblk m c 0 t) (iblk m c 1 t) (iblk m c 2 t) (iblk m c 3 t)) := by
  obtain ⟨n, hn⟩ := t
  cases n with
  | zero => exact rfl
  | succ n => exact (dif_pos h0).trans rfl

/-- At a middle column step, over what the point before left. -/
theorem outsAt0_B (c : Dev nD) (t : Fin cfg0.N) (h0 : ¬t.val % 8 = 0) (h1 : ¬t.val % 8 = 7) :
    outsAt0 m c t.val t.isLt =
      (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (nc1_of t h1) (iblk m c 0 t) (iblk m c 1 t) (iblk m c 2 t) (iblk m c 3 t) (outsAt0 m c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (nc1_of t h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column step, over what the point before left. -/
theorem outsAt0_C (c : Dev nD) (t : Fin cfg0.N) (h0 : ¬t.val % 8 = 0) (h1 : t.val % 8 = 7) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) (outsAt0 m c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the accumulator at anything before the first point, afterwards at
    what the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`: the arrays as the region finds them; after the body each input's
    buffer at its block and the output's at `outsAt0`; the accumulator tracked by `PhiS`; the normalised matrix
    read by its two windows at the two halves of the full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point: the inputs' buffers hold their blocks; the column step says which case the point is
    in; the invariant hands the body the accumulator at what the point before left (at anything at the very
    first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · rw [Dat.leavesExact_idle (dats m 0 c) 4 t (idleAt0_4 t (nc1_of0 t h0)) (noFlush0_4 t (nc1_of0 t h0))]
    rw [outsAt0_A m c t h0]
    unfold sout0_A_0; (try dsimp only)
    have hΦ : (dats m 0 c).Φ t.castSucc ⊢ (iprop(∃ d, owns (c : Thread nD τ) scM0_0 fullShare d) : sProp 𝕄) := by
      rw [PhiS_castSucc m c t]
      by_cases hz : t.val = 0
      · rw [PhiS_zero m c _ _ hz]
      · rw [PhiS_pos m c _ _ hz]; iintro H; iexists _; iexact H
    iintro ⟨HS0, Ho, ⟨%d0, H0⟩, ⟨%d1, H1⟩, ⟨%d2, H2⟩, ⟨%d3, H3⟩, ⟨%d4, H4⟩⟩
    ihave HS0 := hΦ $$ HS0
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) (c0_of t h0) (nc1_of0 t h0) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t (c1_of t h1)], after0_4]
      rw [outsAt0_C m c t h0 h1]
      unfold out0_C_4 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (nc1_of t h1)) (noFlush0_4 t (nc1_of t h1))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (nc1_of t h1) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- The accumulator at anything is the invariant before the first point. -/
theorem hin (c : Dev nD) : (iprop(∃ d, owns (c : Thread nD τ) scM0_0 fullShare d) : sProp 𝕄) ⊢ (dats m 0 c).Φ 0 := by
  rw [show (dats m 0 c).Φ 0 = PhiS m c 0 (Nat.zero_le _) from rfl, PhiS_zero m c 0 _ rfl]

/-- After the last point the accumulator's contents are forgotten. -/
theorem hout (c : Dev nD) : (dats m 0 c).Φ (Fin.last cfg0.N) ⊢ (iprop(∃ d, owns (c : Thread nD τ) scM0_0 fullShare d) : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega)]
  iintro H; iexists _; iexact H

end Cert.KernelIdeal.Hand

end
-- ==== Proof.KI.TailVal.lean ====
/-
  What the last host stretch makes of the array of row sums.
-/
import proofs.«159711_j34565896798668_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sum of the 8192 x 1 array of row sums over an initial zero, divided by the number of pairs. -/
def tailVal (X : (⟨S8192x1, .f32⟩ : BufTy).Contents (Elt F)) : (⟨S_, .f32⟩ : BufTy).Contents (Elt F) :=
  Host.divf (Host.reduceAdd X (constant S_ .f32 0x00000000#32) reducesTo_S8192x1_S_d0_1 h_S_) (constant S_ .f32 0x4C800000#32)

end Cert.KernelIdeal.Hand

end
-- ==== Proof.KI.Launch.lean ====
/-
  The margin-loss kernel's launch, third part: the run of the whole program.

  The launch hands the pipeline the four arrays its windows read or write; the normalised matrix, read by two
  windows, is dealt to them in the two halves of its full share. The accumulator enters the region's invariant at
  anything and leaves it forgotten. After the region the host sums the 8192 x 1 array of row sums over an initial
  zero and divides by the number of pairs: the four operations of that stretch run on the output array as the
  region left it and on their own buffers, everything else passing by. Every weakly fair execution terminates, the
  two argument arrays end as launched, and the result buffer ends at the quotient of the sum of the output array as
  the pipeline's write-backs leave it.
-/
import proofs.«159711_j34565896798668_1_alg».proof.Proof.KI.Body
import proofs.«159711_j34565896798668_1_alg».proof.Proof.KI.TailVal
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays: the buffers behind them, and the pipeline's holdings of them -/

/-- The distinct buffers behind the five windows' arrays are four. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v5) ↦{fullShare} Vv main_v5) ∗ (((c : Thread nD τ).loc main_v6) ↦{fullShare} Vv main_v6) ∗ (((c : Thread nD τ).loc main_v7) ↦{fullShare} Vv main_v7) ∗ (((c : Thread nD τ).loc main_v8) ↦{fullShare} Vv main_v8)) := by
  unfold Pipeline.arrBufs
  exact Idealize.SL.BI.bigSep_eq_bigSepL_of_eq [main_v5, main_v6, main_v7, main_v8] (by decide) (by decide) _

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The pipeline's holdings of its arrays, window by window: the normalised matrix in two halves. -/
theorem arrays0_eq (c : Dev nD) (Fv : (w : Fin cfg0.W) → Buf (Elt F) ((cfg0.win w).arr.view.loc (c : Thread nD τ))) :
    ((dats m 0 c).arrays Fv : sProp 𝕄)
      = iprop((((c : Thread nD τ).loc main_v5) ↦{fullShare.left} Fv 0) ∗ (((c : Thread nD τ).loc main_v5) ↦{fullShare.right} Fv 1) ∗ (((c : Thread nD τ).loc main_v6) ↦{fullShare} Fv 2) ∗ (((c : Thread nD τ).loc main_v7) ↦{fullShare} Fv 3) ∗ (((c : Thread nD τ).loc main_v8) ↦{fullShare} Fv 4)) := by
  unfold Dat.arrays
  rw [bigSep_W0, share0, share1, share2, share3, share4,
    (arr_whole0 0).set_eq_univ, (arr_whole0 2).set_eq_univ, (arr_whole0 3).set_eq_univ, (arr_whole0 4).set_eq_univ]

/-- Dealing the buffers to the windows at the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H5, H6, H7, H8⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  iexact H8

/-! ## The host stretch after the region -/

/-- The buffer contents when the region is left: the output array as the write-backs leave it, every other buffer
    as the region found it. -/
def Wt (c : Dev nD) : Valuation τ sig (Elt F) :=
  Function.update (V0 m c) (Proc.devRef .tc main_v8) ((dats m 0 c).arrAt 4 cfg0.N)
/-- And after the last host stretch. -/
def Vfin (c : Dev nD) : Valuation τ sig (Elt F) := StableHlo.after hostOps1 (Wt m c)

theorem Wt_v8 (c : Dev nD) : Wt m c (Proc.devRef .tc main_v8) = (dats m 0 c).arrAt 4 cfg0.N := by
  unfold Wt; exact Function.update_self _ _ _
theorem Wt_ne (c : Dev nD) {r : Ref sig .tc} (h : r ≠ main_v8) : Wt m c (Proc.devRef .tc r) = V m c r := by
  unfold Wt; exact Function.update_of_ne (StableHlo.devRef_ne_of_ne h) _ _

/-- The buffers the last stretch touches. -/
abbrev tailRefsL : List (Ref sig .tc) := [main_v8, main_cst_0, main_v9, main_cst_1, main_v10]
abbrev tailSet : Finset (DevRef τ sig) := (tailRefsL.map (Proc.devRef (τ := τ) .tc)).toFinset

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem held_tail (c : Dev nD) (W : Valuation τ sig (Elt F)) :
    (StableHlo.held (c : Thread nD τ) tailSet W : sProp 𝕄)
      = iprop((((c : Thread nD τ).loc main_v8) ↦{fullShare} W (Proc.devRef .tc main_v8)) ∗ (((c : Thread nD τ).loc main_cst_0) ↦{fullShare} W (Proc.devRef .tc main_cst_0)) ∗ (((c : Thread nD τ).loc main_v9) ↦{fullShare} W (Proc.devRef .tc main_v9)) ∗ (((c : Thread nD τ).loc main_cst_1) ↦{fullShare} W (Proc.devRef .tc main_cst_1)) ∗ (((c : Thread nD τ).loc main_v10) ↦{fullShare} W (Proc.devRef .tc main_v10))) := by
  unfold StableHlo.held
  exact Idealize.SL.BI.bigSep_eq_bigSepL_of_eq (tailRefsL.map (Proc.devRef (τ := τ) .tc)) rfl (by decide) _

/-- The stretch does not write the output array. -/
theorem Vfin_v8 (c : Dev nD) : Vfin m c (Proc.devRef .tc main_v8) = (dats m 0 c).arrAt 4 cfg0.N := by
  unfold Vfin
  rw [StableHlo.after_of_forall_not_mem (b := Proc.devRef .tc main_v8) _ _ (List.forall_iff_forall_mem.mp (by
    simp only [hostOps1, List.Forall, StableHlo.nullary_writes, StableHlo.binary_writes, Finset.mem_singleton]
    repeat' apply And.intro
    all_goals exact StableHlo.devRef_ne_of_ne (by decide))), Wt_v8]

/-- The result buffer after the stretch: the quotient of the sum of the output array. -/
theorem Vfin_v10 (c : Dev nD) : Vfin m c (Proc.devRef .tc main_v10) = tailVal ((dats m 0 c).arrAt 4 cfg0.N) := by
  unfold Vfin tailVal
  simp only [hostOps1]
  after_results
  rw [Wt_v8]

/-- What bypasses the region, after the last stretch: the four buffers the stretch writes at their new contents. -/
def Zfin (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_call0_v0) ↦{fullShare} V m c main_call0_v0) ∗ (((c : Thread nD τ).loc main_call0_cst) ↦{fullShare} V m c main_call0_cst) ∗ (((c : Thread nD τ).loc main_call0_v1) ↦{fullShare} V m c main_call0_v1) ∗ (((c : Thread nD τ).loc main_call0_v2) ↦{fullShare} V m c main_call0_v2) ∗ (((c : Thread nD τ).loc main_v0) ↦{fullShare} V m c main_v0) ∗ (((c : Thread nD τ).loc main_cst) ↦{fullShare} V m c main_cst) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_v4) ↦{fullShare} V m c main_v4) ∗ (((c : Thread nD τ).loc main_cst_0) ↦{fullShare} Vfin m c (Proc.devRef .tc main_cst_0)) ∗ (((c : Thread nD τ).loc main_v9) ↦{fullShare} Vfin m c (Proc.devRef .tc main_v9)) ∗ (((c : Thread nD τ).loc main_cst_1) ↦{fullShare} Vfin m c (Proc.devRef .tc main_cst_1)) ∗ (((c : Thread nD τ).loc main_v10) ↦{fullShare} Vfin m c (Proc.devRef .tc main_v10)))

set_option maxHeartbeats 1600000 in
/-- The last stretch, from the region's exit: it takes the output array and its own four buffers, leaves the output
    array as it was and hands everything back. -/
theorem htail (c : Dev nD) (Q' : PUnit → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ (Pipeline.chain [StableHlo.seq hostOps1]) Q' := by
  have h := Pipeline.wp_seqs_then (Ix := Unit) (Name := ℕ) (U := UR sig nD τ) (Lvl := ℕ) (pcfgs (F := F)) defs₀ Variants.none c tailSet [] [hostOps1] (K := Q') tail_sub tail_fresh (Wt m c)
  rw [List.flatten_cons, List.flatten_nil, List.append_nil, Pipeline.chain_nil, wp_pure, show StableHlo.after hostOps1 (Wt m c) = Vfin m c from rfl,
    held_tail, held_tail, Vfin_v8, Wt_v8, Wt_ne m c (by decide : main_cst_0 ≠ main_v8), Wt_ne m c (by decide : main_v9 ≠ main_v8),
    Wt_ne m c (by decide : main_cst_1 ≠ main_v8), Wt_ne m c (by decide : main_v10 ≠ main_v8)] at h
  rw [arrays0_eq, unscopedRest0_eq]
  unfold Zfin
  rw [show Pipeline.chain [StableHlo.seq (hostOps1 (F := F))] = Pipeline.chain (([hostOps1] : List (List (HloOp τ sig (Elt F)))).map StableHlo.seq ++ []) from rfl]
  iintro ⟨Hk, Hb, ⟨A0, A1, A2, A3, A4⟩, ⟨R0, R1, R2, R3, R4, R5, R6, R7, R8, R9, R10, R11, R12, R13, R14, R15⟩⟩
  iapply h $$ [Hb A4 R12 R13 R14 R15]
  · isplitl [Hb]; · iexact Hb
    isplitl [A4]; · iexact A4
    isplitl [R12]; · iexact R12
    isplitl [R13]; · iexact R13
    isplitl [R14]; · iexact R14
    iexact R15
  iintro ⟨Hb, A4, R12, R13, R14, R15⟩
  imodintro
  iapply Hk
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

/-! ## The run -/

/-- The rounds library's launch element: every staging cell's owner at round 0 and a duty token for every
    transfer the pipeline issues. -/
def u₀ : UR sig nD τ := initOf (Pipeline.cells (nD := nD) (τ := τ) cfgs cellOf_inj) (Pipeline.launchToks (nD := nD) (τ := τ) cfgs cellOf_inj)

/-- Nothing of the unscoped rest enters the region. -/
theorem hX (c : Dev nD) :
    (Pipeline.unscopedRestP (Ix := Unit) (Name := ℕ) (U := UR sig nD τ) (Lvl := ℕ) Pipeline.Prefetch.none spec0 c (V m c) : sProp 𝕄)
      ⊢ iprop(emp ∗ Pipeline.unscopedRest spec0 c (V m c)) := by
  rw [Pipeline.unscopedRestP_none]
  iintro H; isplitr; · iempintro
  iexact H

/-- The accumulator, at anything, is the invariant before the first point. -/
theorem hin' (c : Dev nD) (T : sProp 𝕄) :
    iprop(emp ∗ T ∗ Pipeline.scopedRest (Ix := Unit) (Name := ℕ) (U := UR sig nD τ) (Lvl := ℕ) (Val := Elt F) spec0 c) ⊢ (dats m 0 c).Φ 0 := by
  rw [scopedRest0_owns]
  iintro ⟨-, -, H⟩
  iapply (hin m c); iexact H

/-- And is given back after the last. -/
theorem hout' (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [scopedRest0_owns]
  refine (hout m c).trans ?_
  iintro H; isplitr; · iempintro
  iexact H

/-- What a final state holds: the result buffer at the quotient, the two argument arrays as launched. -/
def QY (c : Dev nD) (s : MemSt nD τ sig (Elt F)) : Prop :=
  s.mem ((c.tc : Thread nD τ).loc main_v10) = tailVal ((dats m 0 c).arrAt 4 cfg0.N)
    ∧ s.mem ((c.tc : Thread nD τ).loc main_arg0) = m ((c.tc : Thread nD τ).loc main_arg0)
    ∧ s.mem ((c.tc : Thread nD τ).loc main_arg1) = m ((c.tc : Thread nD τ).loc main_arg1)

theorem hY (c : Dev nD) (s' : Phys nD τ sig (Elt F)) :
    iprop(emp ∗ Zfin m c ∗ SI s') ⊢ (|={Set.univ}=> iprop(⌜QY m c s'.mem⌝ ∗ SI s') : sProp 𝕄) := by
  unfold Zfin
  iintro ⟨-, ⟨R0, R1, R2, R3, R4, R5, R6, R7, R8, R9, R10, R11, R12, R13, R14, R15⟩, HSI⟩
  icombine HSI R0 gives %h0
  icombine HSI R1 gives %h1
  icombine HSI R15 gives %h15
  imodintro
  isplitr
  · ipureintro
    exact ⟨(Buf.eq_of_forall_mem_univ h15).trans (Vfin_v10 m c), (Buf.eq_of_forall_mem_univ h0).trans (V_main_arg0 m c), (Buf.eq_of_forall_mem_univ h1).trans (V_main_arg1 m c)⟩
  iexact HSI

set_option backward.isDefEq.respectTransparency.types false in
/-- At the compiled mesh, for any float values, from any memory with zero counters: every weakly fair execution of
    @main terminates, the result buffer ends at the quotient of the sum of the output array as the pipeline's
    write-backs leave it, and the two argument arrays end as launched. -/
theorem run_main : θ_run (defs (F := F)) (onTc (τ := τ) (main (F := F))) (s₀ m ρ) (fun r => ∀ c : Dev nD, QY m c r.2) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRest spec0 c (V m c)) (Z' := Zfin m)
    (hX := hX m) (hin := fun c => hin' m c _) (hout := hout' m)
    (htail := htail m) (QY := QY m) (hY := hY m)
    (hQ := fun s h c => (h c).2.2)

/-- THE FRAME: every weakly fair execution terminates, nothing faults, and the two argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  The mathematics both programs compute, stated once over the extended reals and over no program.

  For a row-normalised matrix `en` (8192 rows of 512 entries) and 8192 integer labels, the similarity of rows
  `a` and `b` is their dot product; the margin loss of the pair is `1 - sim` when the labels agree and
  `max (sim - margin) 0` when they differ; the result is the sum of the loss over all 8192 x 8192 ordered pairs,
  divided by their number. The kernel reaches that sum by rows: for each row `a` it adds, one 1024-column tile
  after another, the tile's sum to an accumulator that starts at zero (`rowAcc`); after the eighth tile the
  accumulator is the row's whole sum (`rowAcc_last`). Sums of extended reals are sums in a commutative monoid,
  so regrouping needs no finiteness.
-/
import Idealize.ShloMosaic.PureOps.Ideal
import Idealize.ShloMosaic.PureOps.Ideal.Laws
import Idealize.ShloMosaic.Lib.ValueIdx

noncomputable section

open scoped BigOperators

namespace Cert.Margin

open Idealize.ShloMosaic Idealize.ShloMosaic.ValueIdx

/-- The dot product of rows `a` and `b`. -/
def sim (en : (⟨2, ![8192, 512]⟩ : Shape).Idx → EReal) (a b : Fin 8192) : EReal :=
  ∑ d : Fin 512, en (ix2 a d) * en (ix2 b d)

/-- The margin loss of one pair from its similarity `s` and the bit "the labels agree". The three literals are
    the f32 words of 1, of the margin 0.2 and of 0, read at the ideal values. -/
def lossOf (same : BitVec 1) (s : EReal) : EReal :=
  Scalar.select same (Ideal.ofBits .f32 0x3F800000#32 - s) (max (s - Ideal.ofBits .f32 0x3E4CCCCD#32) (Ideal.ofBits .f32 0x00000000#32))

/-- The margin loss of the ordered pair `(a, b)`. -/
def lossM (en : (⟨2, ![8192, 512]⟩ : Shape).Idx → EReal) (lbl : (⟨1, ![8192]⟩ : Shape).Idx → BitVec 32) (a b : Fin 8192) : EReal :=
  lossOf (IntOp.cmpi .eq (lbl (ix1 a)) (lbl (ix1 b))) (sim en a b)

/-- Column `n` of column tile `j`. -/
def colOf (j : Fin 8) (n : Fin 1024) : Fin 8192 := ⟨1024 * j.val + n.val, by have := j.isLt; have := n.isLt; omega⟩

/-- The sum of the loss of row `a` over the 1024 columns of tile `j`. -/
def tileSum (en : (⟨2, ![8192, 512]⟩ : Shape).Idx → EReal) (lbl : (⟨1, ![8192]⟩ : Shape).Idx → BitVec 32) (a : Fin 8192) (j : Fin 8) : EReal :=
  ∑ n : Fin 1024, lossM en lbl a (colOf j n)

/-- Row `a`'s accumulator after column tiles `0 … k`: the tiles' sums added one after the other. -/
def rowAcc (en : (⟨2, ![8192, 512]⟩ : Shape).Idx → EReal) (lbl : (⟨1, ![8192]⟩ : Shape).Idx → BitVec 32) (a : Fin 8192) (k : ℕ) : EReal :=
  ∑ j ∈ (Finset.univ : Finset (Fin 8)).filter (fun j => j.val ≤ k), tileSum en lbl a j

/-- After the first tile, over a cleared accumulator. -/
theorem rowAcc_zero (en : (⟨2, ![8192, 512]⟩ : Shape).Idx → EReal) (lbl : (⟨1, ![8192]⟩ : Shape).Idx → BitVec 32) (a : Fin 8192) :
    rowAcc en lbl a 0 = 0 + tileSum en lbl a 0 := by
  -- the only tile index with value at most 0 is 0
  have hf : (Finset.univ : Finset (Fin 8)).filter (fun j => j.val ≤ 0) = {0} := by
    ext j
    simp only [Finset.mem_filter, Finset.mem_univ, true_and, Finset.mem_singleton, Fin.ext_iff, Fin.val_zero]
    omega
  unfold rowAcc
  rw [hf, Finset.sum_singleton, zero_add]

/-- One more tile. -/
theorem rowAcc_succ (en : (⟨2, ![8192, 512]⟩ : Shape).Idx → EReal) (lbl : (⟨1, ![8192]⟩ : Shape).Idx → BitVec 32) (a : Fin 8192) (k : ℕ) (hk : k + 1 < 8) :
    rowAcc en lbl a (k + 1) = rowAcc en lbl a k + tileSum en lbl a ⟨k + 1, hk⟩ := by
  -- the indices up to k + 1 are the indices up to k together with the new index k + 1
  have hf : (Finset.univ : Finset (Fin 8)).filter (fun j => j.val ≤ k + 1)
      = insert (⟨k + 1, hk⟩ : Fin 8) ((Finset.univ : Finset (Fin 8)).filter (fun j => j.val ≤ k)) := by
    ext j
    simp only [Finset.mem_filter, Finset.mem_univ, true_and, Finset.mem_insert, Fin.ext_iff]
    omega
  -- and the new index is not among the old ones
  have hn : (⟨k + 1, hk⟩ : Fin 8) ∉ (Finset.univ : Finset (Fin 8)).filter (fun j => j.val ≤ k) := by
    simp only [Finset.mem_filter, Finset.mem_univ, true_and]
    omega
  unfold rowAcc
  rw [hf, Finset.sum_insert hn, add_comm]

/-- After the eighth tile the accumulator is the row's sum over all columns. -/
theorem rowAcc_last (en : (⟨2, ![8192, 512]⟩ : Shape).Idx → EReal) (lbl : (⟨1, ![8192]⟩ : Shape).Idx → BitVec 32) (a : Fin 8192) :
    rowAcc en lbl a 7 = ∑ b : Fin 8192, lossM en lbl a b := by
  -- every tile index is at most 7, so the filter keeps all eight tiles
  have hf : (Finset.univ : Finset (Fin 8)).filter (fun j => j.val ≤ 7) = Finset.univ := by
    apply Finset.filter_true_of_mem
    intro j _
    have := j.isLt
    omega
  unfold rowAcc tileSum
  rw [hf]
  -- a double sum over (tile, column in tile) is a sum over pairs
  have hpair : ∑ j : Fin 8, ∑ n : Fin 1024, lossM en lbl a (colOf j n)
      = ∑ p : Fin 8 × Fin 1024, lossM en lbl a (colOf p.1 p.2) :=
    (Fintype.sum_prod_type' (fun (j : Fin 8) (n : Fin 1024) => lossM en lbl a (colOf j n))).symm
  -- the pairs are in bijection with the 8192 columns by (j, n) ↦ n + 1024 * j, which is the column `colOf j n`
  have hcol : ∀ p : Fin 8 × Fin 1024,
      colOf p.1 p.2 = (finProdFinEquiv : Fin 8 × Fin 1024 ≃ Fin 8192) p := by
    rintro ⟨j, n⟩
    apply Fin.ext
    show 1024 * j.val + n.val = n.val + 1024 * j.val
    omega
  rw [hpair]
  exact Fintype.sum_equiv (finProdFinEquiv : Fin 8 × Fin 1024 ≃ Fin 8192)
    (fun p => lossM en lbl a (colOf p.1 p.2)) (fun b => lossM en lbl a b) (fun p => by rw [hcol p])

end Cert.Margin

end
-- ==== Proof.KI.PointVal.lean ====
/-
  What one grid point's run leaves, as the body's arithmetic: the accumulator after a point is the body's one
  payload (the tile's row sums added to the accumulator it read), over a cleared accumulator at the first column
  step; the output block at the last column step is a copy of it. Then that payload read at a row, at the ideal
  values: the accumulator's entry plus the sum, over the tile's 1024 columns, of the margin loss of the pair's
  dot product.
-/
import proofs.«159711_j34565896798668_1_alg».proof.Proof.KI.Body
import proofs.«159711_j34565896798668_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces the runs found, as payloads (any float values) -/

/-- Every rectangle the body loads or stores through starts at offset zero on both axes. -/
private theorem hz2 : (![0, 0] : Fin 2 → Nat) = fun _ => 0 := funext fun a => by fin_cases a <;> rfl

theorem sout0_A_0_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .bf16) (x1 : Vec F S1024x512 .bf16) (x2 : Vec F S1024x1 .i32) (x3 : Vec F S1x1024 .i32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  -- the later store covers the whole accumulator; the load between the two stores reads the zero vector
  rw [View.canon_cons_unit_zero (S := S1024x1) hz2, View.readCov_unit_zero (S := S1024x1) _ hz2]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2]

theorem sout0_B_0_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .bf16) (x1 : Vec F S1024x512 .bf16) (x2 : Vec F S1024x1 .i32) (x3 : Vec F S1x1024 .i32) (xs0 : Vec F S1024x1 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  -- one store covering the whole accumulator, of the update of the whole-buffer loads
  rw [View.canon_unit_zero (S := S1024x1) hz2]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2]

theorem sout0_C_0_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  -- one store covering the whole accumulator, of the update of the whole-buffer loads
  rw [View.canon_unit_zero (S := S1024x1) hz2]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2]

theorem out0_C_4_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .bf16) (x1 : Vec F S1024x512 .bf16) (x2 : Vec F S1024x1 .i32) (x3 : Vec F S1x1024 .i32) (xs0 : Vec F S1024x1 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  -- one store covering the output block, of a load of the accumulator made after the accumulator's store
  rw [View.canon_unit_zero (S := S1024x1) hz2, View.readCov_unit_zero (S := S1024x1) _ hz2]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2]

/-! ## The payloads at a row, at the ideal values -/

/-! ## The layout operations and the product of the payload, read at an index given by coordinates -/

/-- A column of 1024 entries broadcast over 1024 columns reads, at (r, n), the column at row r. -/
private theorem bcast_col {α : Type} (v : S1024x1.Idx → α) (h : S1024x1.Broadcasts S1024x1024) (r n : Fin 1024) :
    broadcastTo S1024x1024 v h (ix2 r n) = v (ix2 r (0 : Fin 1)) := by
  refine broadcastTo_apply v h (ix2 r n) (ix2 r (0 : Fin 1)) fun ax => ?_
  match ax with
  | ⟨0, _⟩ => show r.val = if (1024 : Nat) = 1 then 0 else r.val; rw [if_neg (by decide)]
  | ⟨1, _⟩ => show 0 = if (1 : Nat) = 1 then 0 else n.val; rw [if_pos rfl]

/-- A vector of 1024 entries cast to a column reads, at (r, 0), the vector at r. -/
private theorem cast_col {α : Type} (v : S1024.Idx → α) (h : S1024.ShapeCasts S1024x1) (r : Fin 1024) :
    shapeCast S1024x1 v h (ix2 r (0 : Fin 1)) = v (ix1 r) :=
  shapeCast_apply v h _ _ (by
    rw [Shape.rowMajor_val_two, Shape.rowMajor_val_one]
    show r.val = r.val * 1 + 0
    omega)

/-- The sum over the columns of a 1024 x 1024 tile reads, at row r, the sum of the row's 1024 entries. -/
private theorem lane_sum (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ n : Fin 1024, src (ix2 r n) := by
  refine (Ideal.multiReduction_add_single src 0x00000000#32 h hφ hacc (ix1 r)).trans ?_
  refine Finset.sum_congr rfl fun n _ => congrArg src (funext fun a => Fin.ext ?_)
  match a with
  | ⟨0, _⟩ => rfl
  | ⟨1, _⟩ => rfl

private theorem lhs_dot_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
private theorem lhs_dot_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
private theorem rhs_dot_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
private theorem rhs_dot_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The tile's product into a zero splat reads, at (r, n), the dot product of row r of the left block and row n
    of the right block. -/
private theorem matmul_rows (a b : FVec Ideal S1024x512 .bf16) (r n : Fin 1024) :
    matmul (F := Ideal) dot_S1024x512_S1024x512_S1024x1024_1_1_0_0_n_n none a b (constant (F := Ideal) S1024x1024 .f32 0x00000000#32) (ix2 r n)
      = ∑ d : Fin 512, a (ix2 r d) * b (ix2 n d) := by
  refine (Ideal.matmul_constant_zero_apply dot_S1024x512_S1024x512_S1024x1024_1_1_0_0_n_n none a b (ix2 r n)).trans ?_
  rw [← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r n) ((ValueIdx.contrEquiv1 dot_S1024x512_S1024x512_S1024x1024_1_1_0_0_n_n 512 rfl rfl).symm k) = ix2 r k := funext fun ax => Fin.ext (by
    match ax with
    | ⟨0, _⟩ => exact lhs_dot_0 _ _
    | ⟨1, _⟩ => exact (lhs_dot_1 _ _).trans hk)
  have er : dot_S1024x512_S1024x512_S1024x1024_1_1_0_0_n_n.rhsIdx (ix2 r n) ((ValueIdx.contrEquiv1 dot_S1024x512_S1024x512_S1024x1024_1_1_0_0_n_n 512 rfl rfl).symm k) = ix2 n k := funext fun ax => Fin.ext (by
    match ax with
    | ⟨0, _⟩ => exact rhs_dot_0 _ _
    | ⟨1, _⟩ => exact (rhs_dot_1 _ _).trans hk)
  rw [el, er]

/-- The margin loss of a pair, from equal label words and equal similarities. -/
private theorem loss_congr {a a' b b' : BitVec 32} {s s' : EReal} (ha : a = a') (hb : b = b') (hs : s = s') :
    Scalar.select (IntOp.cmpi .eq a b) (Ideal.ofBits .f32 0x3F800000#32 - s)
        (max (s - Ideal.ofBits .f32 0x3E4CCCCD#32) (Ideal.ofBits .f32 0x00000000#32))
      = Cert.Margin.lossOf (IntOp.cmpi .eq a' b') s' := by
  subst ha hb hs; rfl

/-- The cleared accumulator is zero. -/
theorem pay1_apply (y : S1024x1.Idx) : (k0_pay1 (F := Ideal)) y = 0 := by
  unfold k0_pay1
  refine (congrFun (shapeCast_self _ _) y).trans ?_
  exact Ideal.ofBits_zero_f32

/-- Row `r` of the updated accumulator: its entry plus the tile's row sum of the margin loss. -/
theorem pay2_apply (x0 x1 : FVec Ideal S1024x512 .bf16) (x2 : Vec Ideal S1024x1 .i32) (x3 : Vec Ideal S1x1024 .i32) (acc : FVec Ideal S1024x1 .f32) (r : Fin 1024) :
    k0_pay2 x0 x1 x2 x3 acc (ix2 r 0)
      = acc (ix2 r 0) + ∑ n : Fin 1024, Cert.Margin.lossOf (IntOp.cmpi .eq (x2 (ix2 r 0)) (x3 (ix2 0 n))) (∑ d : Fin 512, x0 (ix2 r d) * x1 (ix2 n d)) := by
  unfold k0_pay2
  -- the outer identity cast, then the sum of the accumulator and the column of row sums, at row r
  refine (congrFun (shapeCast_self _ _) (ix2 r 0)).trans ?_
  refine congrArg (acc (ix2 r 0) + ·) ?_
  -- the column of row sums at row r is the sum over the row's 1024 entries of the tile of losses
  refine (cast_col _ _ r).trans ?_
  refine (lane_sum _ _ _ _ r).trans ?_
  refine Finset.sum_congr rfl fun n _ => ?_
  -- the two label words compared at (r, n), and the similarity there
  have e1 : broadcastTo S1024x1024 (shapeCast S1024x1 x2 shapeCasts_S1024x1_S1024x1) broadcasts_S1024x1_S1024x1024 (ix2 r n)
      = x2 (ix2 r 0) :=
    (bcast_col _ _ r n).trans (congrFun (shapeCast_self x2 _) (ix2 r 0))
  have e2 : broadcastTo S1024x1024 (shapeCast S1x1024 x3 shapeCasts_S1x1024_S1x1024) broadcasts_S1x1024_S1024x1024 (ix2 r n)
      = x3 (ix2 0 n) :=
    (broadcastTo_1b_ab_apply _ _ r n).trans (congrFun (shapeCast_self x3 _) (ix2 0 n))
  have e3 : matmul (F := Ideal) dot_S1024x512_S1024x512_S1024x1024_1_1_0_0_n_n none (shapeCast S1024x512 x0 shapeCasts_S1024x512_S1024x512)
        (shapeCast S1024x512 x1 shapeCasts_S1024x512_S1024x512) (constant (F := Ideal) S1024x1024 .f32 0x00000000#32) (ix2 r n)
      = ∑ d : Fin 512, x0 (ix2 r d) * x1 (ix2 n d) :=
    (matmul_rows _ _ r n).trans (Finset.sum_congr rfl fun d _ => by rw [shapeCast_self x0, shapeCast_self x1])
  -- the tile's entry is the margin loss of the pair
  exact loss_congr e1 e2 e3

end Cert.KernelIdeal.Hand

end
-- ==== Proof.KI.Entry.lean ====
/-
  What the region finds in its four input arrays, and each input block as a part of its array.

  Before the region the host divides every row of the embedding matrix by its norm clamped below by 1e-8
  (`enOf`), rounds the quotient to bf16 (the identity at the ideal values), and reshapes the label vector to a
  column and to a row. Window 0 reads the row tile `t / 8` of the normalised matrix and window 1 its row tile
  `t % 8` (the same array through two windows); windows 2 and 3 read the matching 1024 labels of the column and of
  the row.
-/
import proofs.«159711_j34565896798668_1_alg».proof.Proof.KI.Kit
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and blocks at their literal types -/

abbrev enArr (c : Dev nD) : Vec F S8192x512 .bf16 := V m c main_v5
abbrev lblCol (c : Dev nD) : Vec F S8192x1 .i32 := V m c main_v6
abbrev lblRow (c : Dev nD) : Vec F S1x8192 .i32 := V m c main_v7
abbrev blkI (c : Dev nD) (t : Fin cfg0.N) : Vec F S1024x512 .bf16 := iblk m c 0 t
abbrev blkJ (c : Dev nD) (t : Fin cfg0.N) : Vec F S1024x512 .bf16 := iblk m c 1 t
abbrev lblI (c : Dev nD) (t : Fin cfg0.N) : Vec F S1024x1 .i32 := iblk m c 2 t
abbrev lblJ (c : Dev nD) (t : Fin cfg0.N) : Vec F S1x1024 .i32 := iblk m c 3 t

/-- Row `r` of row tile `k`. -/
def rowOf (k : ℕ) (hk : k < 8) (r : Fin 1024) : Fin 8192 := ⟨1024 * k + r.val, by have := r.isLt; omega⟩

theorem div8_lt (t : Fin cfg0.N) : t.val / 8 < 8 := by have : t.val < 64 := lt_of_lt_of_eq t.isLt (show cfg0.N = 64 from N_0); omega
theorem mod8_lt (t : Fin cfg0.N) : t.val % 8 < 8 := by omega

/-! ## The blocks as parts of their arrays (any float values) -/

/-- The four input windows' block indices at grid point `t = 8 * i + j`, decided over the 64 points: windows 0 and
    2 sit at block row `i = t / 8`, window 1 at block row `j = t % 8`, window 3 at block column `j`; every other
    block index is 0. -/
private theorem idx_facts : ∀ t : Fin cfg0.N,
    win0_0.index t (0 : Fin 2) = t.val / 8 ∧ win0_0.index t (1 : Fin 2) = 0 ∧
    win0_1.index t (0 : Fin 2) = t.val % 8 ∧ win0_1.index t (1 : Fin 2) = 0 ∧
    win0_2.index t (0 : Fin 2) = t.val / 8 ∧ win0_2.index t (1 : Fin 2) = 0 ∧
    win0_3.index t (0 : Fin 2) = 0 ∧ win0_3.index t (1 : Fin 2) = t.val % 8 :=
  (by decide +kernel : ∀ t : Fin grid0.N, _)

theorem blkI_apply (c : Dev nD) (t : Fin cfg0.N) (r : Fin 1024) (d : Fin 512) :
    blkI m c t (ix2 r d) = enArr m c (ix2 (rowOf (t.val / 8) (div8_lt t) r) d) := by
  -- on each axis the entry sits at block index × block size + its coordinate inside the block
  obtain ⟨e0, e1, -⟩ := idx_facts t
  show V m c main_v5 (((cfg0.win 0).blk t).view.emb (ix2 r d)) = V m c main_v5 (ix2 (rowOf (t.val / 8) (div8_lt t) r) d)
  refine congrArg _ ?_
  funext a; apply Fin.ext
  match a with
  | ⟨0, _⟩ => show win0_0.index t (0 : Fin 2) * 1024 + 1 * r.val = 1024 * (t.val / 8) + r.val; omega
  | ⟨1, _⟩ => show win0_0.index t (1 : Fin 2) * 512 + 1 * d.val = d.val; omega

theorem blkJ_apply (c : Dev nD) (t : Fin cfg0.N) (n : Fin 1024) (d : Fin 512) :
    blkJ m c t (ix2 n d) = enArr m c (ix2 (rowOf (t.val % 8) (mod8_lt t) n) d) := by
  obtain ⟨-, -, e0, e1, -⟩ := idx_facts t
  show V m c main_v5 (((cfg0.win 1).blk t).view.emb (ix2 n d)) = V m c main_v5 (ix2 (rowOf (t.val % 8) (mod8_lt t) n) d)
  refine congrArg _ ?_
  funext a; apply Fin.ext
  match a with
  | ⟨0, _⟩ => show win0_1.index t (0 : Fin 2) * 1024 + 1 * n.val = 1024 * (t.val % 8) + n.val; omega
  | ⟨1, _⟩ => show win0_1.index t (1 : Fin 2) * 512 + 1 * d.val = d.val; omega

theorem lblI_apply (c : Dev nD) (t : Fin cfg0.N) (r : Fin 1024) :
    lblI m c t (ix2 r 0) = lblCol m c (ix2 (rowOf (t.val / 8) (div8_lt t) r) 0) := by
  obtain ⟨-, -, -, -, e0, e1, -⟩ := idx_facts t
  show V m c main_v6 (((cfg0.win 2).blk t).view.emb (ix2 r 0)) = V m c main_v6 (ix2 (rowOf (t.val / 8) (div8_lt t) r) 0)
  refine congrArg _ ?_
  funext a; apply Fin.ext
  match a with
  | ⟨0, _⟩ => show win0_2.index t (0 : Fin 2) * 1024 + 1 * r.val = 1024 * (t.val / 8) + r.val; omega
  | ⟨1, _⟩ => show win0_2.index t (1 : Fin 2) * 1 + 1 * (0 : Fin 1).val = (0 : Fin 1).val; simp only [Fin.val_zero]; omega

theorem lblJ_apply (c : Dev nD) (t : Fin cfg0.N) (n : Fin 1024) :
    lblJ m c t (ix2 0 n) = lblRow m c (ix2 0 (rowOf (t.val % 8) (mod8_lt t) n)) := by
  obtain ⟨-, -, -, -, -, -, e0, e1⟩ := idx_facts t
  show V m c main_v7 (((cfg0.win 3).blk t).view.emb (ix2 0 n)) = V m c main_v7 (ix2 0 (rowOf (t.val % 8) (mod8_lt t) n))
  refine congrArg _ ?_
  funext a; apply Fin.ext
  match a with
  | ⟨0, _⟩ => show win0_3.index t (0 : Fin 2) * 1 + 1 * (0 : Fin 1).val = (0 : Fin 1).val; simp only [Fin.val_zero]; omega
  | ⟨1, _⟩ => show win0_3.index t (1 : Fin 2) * 1024 + 1 * n.val = 1024 * (t.val % 8) + n.val; omega

/-! ## The arrays as the host operations leave them -/

/-- The rows divided by their clamped norms: the host operations before the rounding, as one function of the
    embedding matrix. -/
def enOf (x : (⟨S8192x512, .f32⟩ : BufTy).Contents (Elt F)) : (⟨S8192x512, .f32⟩ : BufTy).Contents (Elt F) :=
  Host.divf x (broadcastInDim S8192x512 ![0, 1] bcast_S8192x1_S8192x512_0_1
    (maximumf (Host.sqrt (broadcastInDim S8192x1 ![0] bcast_S8192_S8192x1_0 (Host.reduceAdd (mulf x x) (constant S_ .f32 0x00000000#32) reducesTo_S8192x512_S8192_d1 h_S_)))
      (broadcastInDim S8192x1 ![] bcast_S_S8192x1 (constant S_ .f32 0x322BCC77#32))))

/-- The array both matrix windows read: the normalised matrix rounded to bf16. -/
theorem enArr_eq (c : Dev nD) : enArr m c = truncf .bf16 (enOf (m ((c : Thread nD τ).loc main_arg0))) bitsLt_bf16_f32 := by
  -- each host operation's result is the operation of its operands' results, back to the two argument arrays
  dsimp only [enArr, V, V0]
  simp only [hostOps0, hostOps0_1, List.flatten_cons, List.flatten_nil, List.append_nil, List.cons_append, List.nil_append]
  after_results
  rfl

/-- The column of labels is the label vector recast to 8192 x 1. -/
private theorem lblCol_eq (c : Dev nD) : lblCol m c = shapeCast S8192x1 (m ((c : Thread nD τ).loc main_arg1)) shapeCasts_S8192_S8192x1 := by
  dsimp only [lblCol, V, V0]
  simp only [hostOps0, hostOps0_1, List.flatten_cons, List.flatten_nil, List.append_nil, List.cons_append, List.nil_append]
  after_results
  rfl

/-- The row of labels is the label vector recast to 1 x 8192. -/
private theorem lblRow_eq (c : Dev nD) : lblRow m c = shapeCast S1x8192 (m ((c : Thread nD τ).loc main_arg1)) shapeCasts_S8192_S1x8192 := by
  dsimp only [lblRow, V, V0]
  simp only [hostOps0, hostOps0_1, List.flatten_cons, List.flatten_nil, List.append_nil, List.cons_append, List.nil_append]
  after_results
  rfl

theorem lblCol_apply (c : Dev nD) (a : Fin 8192) : lblCol m c (ix2 a 0) = m ((c : Thread nD τ).loc main_arg1) (ix1 a) := by
  -- entry (a, 0) of the column and entry a of the vector have the same row-major position, a * 1 + 0 = a
  rw [lblCol_eq]
  refine shapeCast_apply _ _ (ix2 a 0) (ix1 a) ?_
  rw [Shape.rowMajor_val_two, Shape.rowMajor_val_one]
  show a.val = a.val * 1 + (0 : Fin 1).val
  simp only [Fin.val_zero]; omega

theorem lblRow_apply (c : Dev nD) (a : Fin 8192) : lblRow m c (ix2 0 a) = m ((c : Thread nD τ).loc main_arg1) (ix1 a) := by
  -- entry (0, a) of the row and entry a of the vector have the same row-major position, 0 * 8192 + a = a
  rw [lblRow_eq]
  refine shapeCast_apply _ _ (ix2 0 a) (ix1 a) ?_
  rw [Shape.rowMajor_val_two, Shape.rowMajor_val_one]
  show a.val = (0 : Fin 1).val * 8192 + a.val
  simp only [Fin.val_zero]; omega

end Cert.KernelIdeal.Hand

end
-- ==== Proof.KI.Final.lean ====
/-
  The output array after the run, at the ideal values: entry `a` of the 8192 x 1 array the pipeline writes back
  is the sum, over all 8192 columns, of the margin loss of row `a` against each column.

  By induction on the grid point: after the point of row tile `I` and column step `k` the accumulator's row `r`
  holds the sums of the column tiles `0 … k` of row `1024 I + r`, added one after the other (`rowAcc`): the first
  step adds the first tile's sum to the cleared accumulator, every later step adds its tile's sum to what the
  step before left. At the last column step the output block is a copy of the accumulator, which by then is the
  row's whole sum, and the pipeline writes it back as block `I` of the output array; the eight written blocks
  cover the array.
-/
import proofs.«159711_j34565896798668_1_alg».proof.Proof.KI.PointVal
import proofs.«159711_j34565896798668_1_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One tile's row sum, from the blocks to the arrays -/

/-- Row `n` of row tile `k` and column `n` of column tile `k` are the same number. -/
private theorem rowOf_eq_colOf (k : ℕ) (hk : k < 8) (n : Fin 1024) : rowOf k hk n = Cert.Margin.colOf ⟨k, hk⟩ n := rfl

/-- The row of a tile does not depend on how the tile's number is written. -/
private theorem rowOf_congr (k k' : ℕ) (hk : k < 8) (hk' : k' < 8) (h : k = k') (r : Fin 1024) : rowOf k hk r = rowOf k' hk' r := by
  subst h; rfl

/-- At the ideal values the rounding to bf16 is the identity: the array both matrix windows read is the normalised matrix. -/
private theorem enArr_apply (m : (ℓ : Loc nD τ sig) → Buf (Elt Ideal) ℓ) (c : Dev nD) (a : Fin 8192) (d : Fin 512) :
    enArr (F := Ideal) m c (ix2 a d) = enOf (m ((c : Thread nD τ).loc main_arg0)) (ix2 a d) := by
  rw [enArr_eq]; rfl

/-- One pair's loss from the point's four blocks is the margin loss of the pair's row and column in the arrays. -/
private theorem term_eq (m : (ℓ : Loc nD τ sig) → Buf (Elt Ideal) ℓ) (c : Dev nD) (t : Fin cfg0.N) (r n : Fin 1024) :
    Cert.Margin.lossOf (IntOp.cmpi .eq (lblI (F := Ideal) m c t (ix2 r 0)) (lblJ (F := Ideal) m c t (ix2 0 n)))
        (∑ d : Fin 512, blkI (F := Ideal) m c t (ix2 r d) * blkJ (F := Ideal) m c t (ix2 n d))
      = Cert.Margin.lossM (enOf (m ((c : Thread nD τ).loc main_arg0))) (m ((c : Thread nD τ).loc main_arg1)) (rowOf (t.val / 8) (div8_lt t) r) (Cert.Margin.colOf ⟨t.val % 8, mod8_lt t⟩ n) := by
  have hs : (∑ d : Fin 512, blkI (F := Ideal) m c t (ix2 r d) * blkJ (F := Ideal) m c t (ix2 n d))
      = Cert.Margin.sim (enOf (m ((c : Thread nD τ).loc main_arg0))) (rowOf (t.val / 8) (div8_lt t) r) (Cert.Margin.colOf ⟨t.val % 8, mod8_lt t⟩ n) := by
    unfold Cert.Margin.sim
    refine Finset.sum_congr rfl fun d _ => ?_
    rw [blkI_apply, blkJ_apply, enArr_apply, enArr_apply, rowOf_eq_colOf (t.val % 8) (mod8_lt t) n]
  rw [hs, lblI_apply, lblJ_apply, lblCol_apply, lblRow_apply, rowOf_eq_colOf (t.val % 8) (mod8_lt t) n]
  rfl

/-- The tile's row sum from the point's four blocks is the specification's tile sum. -/
private theorem tile_sum (m : (ℓ : Loc nD τ sig) → Buf (Elt Ideal) ℓ) (c : Dev nD) (t : Fin cfg0.N) (r : Fin 1024) :
    (∑ n : Fin 1024, Cert.Margin.lossOf (IntOp.cmpi .eq (lblI (F := Ideal) m c t (ix2 r 0)) (lblJ (F := Ideal) m c t (ix2 0 n)))
        (∑ d : Fin 512, blkI (F := Ideal) m c t (ix2 r d) * blkJ (F := Ideal) m c t (ix2 n d)))
      = Cert.Margin.tileSum (enOf (m ((c : Thread nD τ).loc main_arg0))) (m ((c : Thread nD τ).loc main_arg1)) (rowOf (t.val / 8) (div8_lt t) r) ⟨t.val % 8, mod8_lt t⟩ :=
  Finset.sum_congr rfl fun n _ => term_eq m c t r n

/-- The accumulator after a first column step, whatever the step is called. -/
private theorem rowAcc_first (en : (⟨2, ![8192, 512]⟩ : Shape).Idx → EReal) (lbl : (⟨1, ![8192]⟩ : Shape).Idx → BitVec 32) (a : Fin 8192)
    (k : ℕ) (hk : k < 8) (h0 : k = 0) : Cert.Margin.rowAcc en lbl a k = 0 + Cert.Margin.tileSum en lbl a ⟨k, hk⟩ := by
  subst h0; exact Cert.Margin.rowAcc_zero en lbl a

/-- The accumulator after a later column step: the step before, plus this tile. -/
private theorem rowAcc_step (en : (⟨2, ![8192, 512]⟩ : Shape).Idx → EReal) (lbl : (⟨1, ![8192]⟩ : Shape).Idx → BitVec 32) (a : Fin 8192)
    (k : ℕ) (hk : k < 8) (h0 : k ≠ 0) :
    Cert.Margin.rowAcc en lbl a k = Cert.Margin.rowAcc en lbl a (k - 1) + Cert.Margin.tileSum en lbl a ⟨k, hk⟩ := by
  obtain ⟨j, rfl⟩ : ∃ j, k = j + 1 := ⟨k - 1, by omega⟩
  exact Cert.Margin.rowAcc_succ en lbl a j hk

/-! ## The accumulator after each point -/

/-- The accumulator's value at every point below `k`, by induction on `k`. -/
private theorem acc_below (m : (ℓ : Loc nD τ sig) → Buf (Elt Ideal) ℓ) (c : Dev nD) (r : Fin 1024) (k : ℕ) : ∀ t : Fin cfg0.N, t.val < k →
    (outsAt0 (F := Ideal) m c t.val t.isLt).2 (ix2 r 0)
      = Cert.Margin.rowAcc (enOf (m ((c : Thread nD τ).loc main_arg0))) (m ((c : Thread nD τ).loc main_arg1)) (rowOf (t.val / 8) (div8_lt t) r) (t.val % 8) := by
  induction k with
  | zero => intro t ht; exact absurd ht (Nat.not_lt_zero _)
  | succ k ih =>
    intro t ht
    have hN : t.val < 64 := lt_of_lt_of_eq t.isLt (show cfg0.N = 64 from N_0)
    by_cases h0 : t.val % 8 = 0
    · rw [outsAt0_A m c t h0]; dsimp only
      refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (c0_of t h0) (nc1_of0 t h0) (iblk m c 0 t) (iblk m c 1 t) (iblk m c 2 t) (iblk m c 3 t)) (ix2 r 0)).trans ?_
      refine (pay2_apply (blkI (F := Ideal) m c t) (blkJ (F := Ideal) m c t) (lblI (F := Ideal) m c t) (lblJ (F := Ideal) m c t) (k0_pay1 (F := Ideal)) r).trans ?_
      rw [pay1_apply, tile_sum m c t r]
      exact (rowAcc_first _ _ _ (t.val % 8) (mod8_lt t) h0).symm
    · have hpos : t.val ≠ 0 := fun h => h0 (by rw [h])
      have ih' : (outsAt0 (F := Ideal) m c (t.val - 1) (Nat.lt_of_le_of_lt (Nat.sub_le _ _) t.isLt)).2 (ix2 r 0)
          = Cert.Margin.rowAcc (enOf (m ((c : Thread nD τ).loc main_arg0))) (m ((c : Thread nD τ).loc main_arg1)) (rowOf (t.val / 8) (div8_lt t) r) (t.val % 8 - 1) := by
        refine (ih ⟨t.val - 1, Nat.lt_of_le_of_lt (Nat.sub_le _ _) t.isLt⟩ (by show t.val - 1 < k; omega)).trans ?_
        show Cert.Margin.rowAcc _ _ (rowOf ((t.val - 1) / 8) _ r) ((t.val - 1) % 8) = _
        rw [rowOf_congr ((t.val - 1) / 8) (t.val / 8) _ (div8_lt t) (by omega) r, show (t.val - 1) % 8 = t.val % 8 - 1 from by omega]
      by_cases h1 : t.val % 8 = 7
      · rw [outsAt0_C m c t h0 h1]; dsimp only
        refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) (outsAt0 (F := Ideal) m c (t.val - 1) (Nat.lt_of_le_of_lt (Nat.sub_le _ _) t.isLt)).2) (ix2 r 0)).trans ?_
        refine (pay2_apply (blkI (F := Ideal) m c t) (blkJ (F := Ideal) m c t) (lblI (F := Ideal) m c t) (lblJ (F := Ideal) m c t) (outsAt0 (F := Ideal) m c (t.val - 1) (Nat.lt_of_le_of_lt (Nat.sub_le _ _) t.isLt)).2 r).trans ?_
        rw [ih', tile_sum m c t r]
        exact (rowAcc_step _ _ _ (t.val % 8) (mod8_lt t) h0).symm
      · rw [outsAt0_B m c t h0 h1]; dsimp only
        refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (nc1_of t h1) (iblk m c 0 t) (iblk m c 1 t) (iblk m c 2 t) (iblk m c 3 t) (outsAt0 (F := Ideal) m c (t.val - 1) (Nat.lt_of_le_of_lt (Nat.sub_le _ _) t.isLt)).2) (ix2 r 0)).trans ?_
        refine (pay2_apply (blkI (F := Ideal) m c t) (blkJ (F := Ideal) m c t) (lblI (F := Ideal) m c t) (lblJ (F := Ideal) m c t) (outsAt0 (F := Ideal) m c (t.val - 1) (Nat.lt_of_le_of_lt (Nat.sub_le _ _) t.isLt)).2 r).trans ?_
        rw [ih', tile_sum m c t r]
        exact (rowAcc_step _ _ _ (t.val % 8) (mod8_lt t) h0).symm

/-- The accumulator after point `t`, row `r`: the sums of the column tiles up to this step of the row's loss. -/
theorem acc_value (m : (ℓ : Loc nD τ sig) → Buf (Elt Ideal) ℓ) (c : Dev nD) (t : Fin cfg0.N) (r : Fin 1024) :
    (outsAt0 (F := Ideal) m c t.val t.isLt).2 (ix2 r 0)
      = Cert.Margin.rowAcc (enOf (m ((c : Thread nD τ).loc main_arg0))) (m ((c : Thread nD τ).loc main_arg1)) (rowOf (t.val / 8) (div8_lt t) r) (t.val % 8) :=
  acc_below m c r (t.val + 1) t (Nat.lt_succ_self _)

/-- The output block at a last column step, row `r`: the row's sum over all columns. -/
theorem out_value (m : (ℓ : Loc nD τ sig) → Buf (Elt Ideal) ℓ) (c : Dev nD) (t : Fin cfg0.N) (h1 : t.val % 8 = 7) (r : Fin 1024) :
    (outsAt0 (F := Ideal) m c t.val t.isLt).1 (ix2 r 0)
      = ∑ b : Fin 8192, Cert.Margin.lossM (enOf (m ((c : Thread nD τ).loc main_arg0))) (m ((c : Thread nD τ).loc main_arg1)) (rowOf (t.val / 8) (div8_lt t) r) b := by
  have h0 : ¬t.val % 8 = 0 := by omega
  -- the accumulator at this point, as the point's payload
  have hacc := acc_value m c t r
  rw [outsAt0_C m c t h0 h1] at hacc
  dsimp only at hacc
  have hpay := (congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) (outsAt0 (F := Ideal) m c (t.val - 1) (Nat.lt_of_le_of_lt (Nat.sub_le _ _) t.isLt)).2) (ix2 r 0)).symm.trans hacc
  -- the output block is the same payload
  rw [outsAt0_C m c t h0 h1]; dsimp only
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (nc0_of t h0) (c1_of t h1) (iblk m c 0 t) (iblk m c 1 t) (iblk m c 2 t) (iblk m c 3 t) (outsAt0 (F := Ideal) m c (t.val - 1) (Nat.lt_of_le_of_lt (Nat.sub_le _ _) t.isLt)).2) (ix2 r 0)).trans ?_
  rw [hpay, h1]
  exact Cert.Margin.rowAcc_last _ _ _

/-! ## From the blocks to the array -/

/-- What the output array ends holding: at row `a`, the sum over all columns of the row's loss. -/
private abbrev rowSums (m : (ℓ : Loc nD τ sig) → Buf (Elt Ideal) ℓ) (c : Dev nD) : S8192x1.Idx → EReal :=
  fun i => ∑ b : Fin 8192, Cert.Margin.lossM (enOf (m ((c : Thread nD τ).loc main_arg0))) (m ((c : Thread nD τ).loc main_arg1)) (i 0) b

/-- The output window's block index at grid point `t = 8 * i + j`, decided over the 64 points: block row `i`,
    block column 0. -/
private theorem out_idx : ∀ t : Fin cfg0.N, win0_4.index t (0 : Fin 2) = t.val / 8 ∧ win0_4.index t (1 : Fin 2) = 0 :=
  (by decide +kernel : ∀ t : Fin grid0.N, _)

/-- What a last column step writes back is its block of the row sums: row `r` of the block is row
    `1024 * (t / 8) + r` of the array. -/
private theorem flushed_eq (m : (ℓ : Loc nD τ sig) → Buf (Elt Ideal) ℓ) (c : Dev nD) (t : Fin cfg0.N) (hf : (cfg0.win 4).flush t = true) :
    (dats (F := Ideal) m 0 c).flushed 4 t = ((cfg0.win 4).blk t).view.read (Elt Ideal) (rowSums m c) := by
  have h1 : t.val % 8 = 7 := (flush0_4 t).mp hf
  obtain ⟨e0, e1⟩ := out_idx t
  show (cfg0.win 4).cut (grid0.coords t) ((dats m 0 c).after 4 t) = _
  rw [after0_4]
  funext y
  obtain ⟨r, q, rfl⟩ : ∃ (r : Fin 1024) (q : Fin 1), y = ix2 r q := ⟨y 0, y 1, eq_ix2 (n0 := 1024) (n1 := 1) y⟩
  obtain rfl : q = 0 := Subsingleton.elim _ _
  show (outsAt0 (F := Ideal) m c t.val t.isLt).1 (ix2 r 0) = rowSums m c (((cfg0.win 4).blk t).view.emb (ix2 r 0))
  rw [out_value m c t h1 r]
  refine Finset.sum_congr rfl fun b _ => congrArg (fun a => Cert.Margin.lossM (enOf (m ((c : Thread nD τ).loc main_arg0))) (m ((c : Thread nD τ).loc main_arg1)) a b) ?_
  apply Fin.ext
  show 1024 * (t.val / 8) + r.val = win0_4.index t (0 : Fin 2) * 1024 + 1 * r.val
  omega

/-- Every row of the array is in the block some last column step writes back: row `a` in that of row tile `a / 1024`. -/
private theorem covered (i : S8192x1.Idx) :
    ∃ t : Fin cfg0.N, (cfg0.win 4).flush t = true ∧ i ∈ ((cfg0.win 4).blk t).view.set := by
  have hi : (i 0).val < 8192 := (i 0).isLt
  have hq : (i 1).val < 1 := (i 1).isLt
  have hN : cfg0.N = 64 := N_0
  obtain ⟨t, ht⟩ : ∃ t : Fin cfg0.N, t.val = 8 * ((i 0).val / 1024) + 7 := ⟨⟨8 * ((i 0).val / 1024) + 7, by rw [hN]; omega⟩, rfl⟩
  obtain ⟨e0, e1⟩ := out_idx t
  refine ⟨t, (flush0_4 t).mpr (by omega), ?_⟩
  show i ∈ ((View.whole main_v8).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The output array after the last write-back: every row's sum. -/
theorem arrAt4 (m : (ℓ : Loc nD τ sig) → Buf (Elt Ideal) ℓ) (c : Dev nD) (a : Fin 8192) :
    ((dats (F := Ideal) m 0 c).arrAt 4 cfg0.N : S8192x1.Idx → EReal) (ix2 a 0)
      = ∑ b : Fin 8192, Cert.Margin.lossM (enOf (m ((c : Thread nD τ).loc main_arg0))) (m ((c : Thread nD τ).loc main_arg1)) a b :=
  congrFun ((dats (F := Ideal) m 0 c).arrAt_eq_of_cover 4 (rowSums m c) (flushed_eq m c) covered) (ix2 a 0)

end Cert.KernelIdeal.Hand

end
-- ==== Proof.RefValue.lean ====
/-
  The reference program's result as the specification's function of the two argument arrays: the reference
  normalises the rows, takes all 8192 x 8192 dot products in one product of the normalised matrix with its
  transpose, applies the margin loss entry by entry, sums every entry over an initial zero and divides by the
  number of pairs. Read at the ideal values one operation at a time, its one result is the quotient of that double
  sum, the sum over the rank-2 index set being the double sum over rows and columns.
-/
import proofs.«159711_j34565896798668_1_alg».proof.Proof.Gen.ReferenceIdeal.Read
import proofs.«159711_j34565896798668_1_alg».proof.Proof.Spec
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx Cert.ReferenceIdeal

/-- The left operand's index of the product at entry `(a, b)` and contraction position `k` is `(a, k)`. -/
private theorem lidx_at (a b : Fin 8192) (k : Fin 512) : Read.lidx_main_v5 (ix2 a b) k = ix2 a k :=
  funext fun d => Fin.ext (by match d with | ⟨0, _⟩ => rfl | ⟨1, _⟩ => rfl)

/-- The right operand's index of the product at entry `(a, b)` and contraction position `k` is `(b, k)`. -/
private theorem ridx_at (a b : Fin 8192) (k : Fin 512) : Read.ridx_main_v5 (ix2 a b) k = ix2 b k :=
  funext fun d => Fin.ext (by match d with | ⟨0, _⟩ => rfl | ⟨1, _⟩ => rfl)

/-- Entry `(a, b)` of the product of the normalised matrix with its transpose is the similarity of rows `a` and `b`. -/
private theorem v5_at (x0 : (⟨S8192x512, .f32⟩ : BufTy).Contents (Elt Ideal)) (a b : Fin 8192) :
    Read.val_main_v5 (F := Ideal) x0 (ix2 a b) = Cert.Margin.sim (Read.val_main_v4 (F := Ideal) x0) a b := by
  rw [Read.val_main_v5_apply]
  generalize Read.val_main_v4 (F := Ideal) x0 = en
  unfold Cert.Margin.sim
  refine Finset.sum_congr rfl fun k _ => ?_
  rw [lidx_at, ridx_at]

/-- Entry `(a, b)` of the labels broadcast along the columns is the label of row `a`. -/
private theorem v8_at (x1 : (⟨S8192, .i32⟩ : BufTy).Contents (Elt Ideal)) (a b : Fin 8192) :
    Read.val_main_v8 (F := Ideal) x1 (ix2 a b) = x1 (ix1 a) := by
  rw [Read.val_main_v8_apply, Read.val_main_v6_apply]
  exact congrArg x1 (funext fun d => Fin.ext (by match d with | ⟨0, _⟩ => rfl))

/-- Entry `(a, b)` of the labels broadcast along the rows is the label of row `b`. -/
private theorem v9_at (x1 : (⟨S8192, .i32⟩ : BufTy).Contents (Elt Ideal)) (a b : Fin 8192) :
    Read.val_main_v9 (F := Ideal) x1 (ix2 a b) = x1 (ix1 b) := by
  rw [Read.val_main_v9_apply, Read.val_main_v7_apply]
  exact congrArg x1 (funext fun d => Fin.ext (by match d with | ⟨0, _⟩ => rfl))

/-- Entry `(a, b)` of the selected array is the margin loss of the ordered pair `(a, b)`. -/
private theorem v17_at (x0 : (⟨S8192x512, .f32⟩ : BufTy).Contents (Elt Ideal)) (x1 : (⟨S8192, .i32⟩ : BufTy).Contents (Elt Ideal))
    (a b : Fin 8192) :
    Read.val_main_v17 (F := Ideal) x0 x1 (ix2 a b) = Cert.Margin.lossM (Read.val_main_v4 (F := Ideal) x0) x1 a b := by
  rw [Read.val_main_v17_apply, Read.val_main_v10_apply, Read.val_main_v12_apply, Read.val_main_v16_apply,
    Read.val_main_v14_apply, Read.val_main_v11_apply, Read.val_main_v13_apply, Read.val_main_v15_apply,
    Read.val_main_cst_0_apply, Read.val_main_cst_1_apply, Read.val_main_cst_2_apply, v8_at, v9_at, v5_at]
  rfl

/-- The reference's result: the double sum of the margin loss of the normalised rows, over zero, divided by the
    number of pairs. -/
theorem ref_result (x0 : (⟨S8192x512, .f32⟩ : BufTy).Contents (Elt Ideal)) (x1 : (⟨S8192, .i32⟩ : BufTy).Contents (Elt Ideal)) (i : S_.Idx) :
    Read.val_main_v19 (F := Ideal) x0 x1 i
      = Ideal.div (Ideal.ofBits .f32 0x00000000#32 + ∑ a : Fin 8192, ∑ b : Fin 8192, Cert.Margin.lossM (Read.val_main_v4 (F := Ideal) x0) x1 a b)
          (Ideal.ofBits .f32 0x4C800000#32) := by
  rw [Read.val_main_v19_apply, Read.val_main_v18_apply, Read.val_main_cst_3_apply, Read.val_main_cst_4_apply,
    Ideal.hostDivf_def, Ideal.ofBits_def, Ideal.ofBits_def, ValueIdx.sum_idx2]
  refine congrArg (fun s => Ideal.div (Ideal.ofBits .f32 0x00000000#32 + s) (Ideal.ofBits .f32 0x4C800000#32)) ?_
  exact Finset.sum_congr rfl fun a _ => Finset.sum_congr rfl fun b _ => v17_at x0 x1 a b

end Cert.ReferenceIdeal.RefValue

end
-- ==== Proof.Bridge.lean ====
/-
  The two idealized programs compute one function of the argument arrays.

  Both normalise the rows of the embedding matrix by the same host operations; the kernel's program then rounds
  the quotient to bf16, which at the ideal values changes nothing. The kernel's program ends at the quotient of the
  sum of the 8192 row sums the pipeline wrote back; the reference at the quotient of the sum of all 8192 x 8192
  losses. Each row sum is the sum of that row's losses, so the two sums agree, term by term over the rows.
-/
import proofs.«159711_j34565896798668_1_alg».proof.Proof.KI.Final
import proofs.«159711_j34565896798668_1_alg».proof.Proof.KI.TailVal
import proofs.«159711_j34565896798668_1_alg».proof.Proof.RefValue

noncomputable section

open scoped BigOperators

namespace Cert.Proof.Bridge

open Idealize.ShloMosaic Idealize.ShloMosaic.TcCoe Idealize.ShloMosaic.ValueIdx Idealize.SL.Sem

/-- The two programs' row normalisations are one function (the same operations over the same shapes). -/
theorem en_eq {F : FTy → Type} [FloatOps F] (x : (⟨Cert.KernelIdeal.S8192x512, .f32⟩ : BufTy).Contents (Elt F)) :
    Cert.KernelIdeal.Hand.enOf (F := F) x = Cert.ReferenceIdeal.Read.val_main_v4 (F := F) x := by
  -- stage by stage the reference's row normalisation is the same nest of host operations, over the same
  -- literal shapes; the shape facts are propositions, so their proofs do not matter
  unfold Cert.KernelIdeal.Hand.enOf Cert.ReferenceIdeal.Read.val_main_v4 Cert.ReferenceIdeal.Read.val_main_v3
    Cert.ReferenceIdeal.Read.val_main_v2 Cert.ReferenceIdeal.Read.val_main_v1 Cert.ReferenceIdeal.Read.val_main_cst
    Cert.ReferenceIdeal.Read.val_main_v0 Cert.ReferenceIdeal.Read.val_main_call0_v2
    Cert.ReferenceIdeal.Read.val_main_call0_v1 Cert.ReferenceIdeal.Read.val_main_call0_cst
    Cert.ReferenceIdeal.Read.val_main_call0_v0
  rfl

/-- The last host stretch read at the ideal values: the quotient, by the number of pairs, of the initial zero plus
    the sum of the 8192 entries of the 8192 x 1 array (a sum over both axes, the second of extent one). -/
private theorem tailVal_apply (X : (⟨Cert.KernelIdeal.S8192x1, .f32⟩ : BufTy).Contents (Elt Ideal)) (i : Cert.KernelIdeal.S_.Idx) :
    Cert.KernelIdeal.Hand.tailVal (F := Ideal) X i
      = Ideal.div (Ideal.ofBits .f32 0x00000000#32 + ∑ a : Fin 8192, (X : Cert.KernelIdeal.S8192x1.Idx → EReal) (ix2 a 0))
          (Ideal.ofBits .f32 0x4C800000#32) := by
  unfold Cert.KernelIdeal.Hand.tailVal
  show FloatOps.hostDivf
      (Host.reduceAdd X (constant Cert.KernelIdeal.S_ .f32 0x00000000#32) Cert.KernelIdeal.Gen.reducesTo_S8192x1_S_d0_1 Cert.KernelIdeal.Gen.h_S_ i)
      (constant (F := Ideal) Cert.KernelIdeal.S_ .f32 0x4C800000#32 i) = _
  rw [Ideal.hostDivf_def, ValueIdx.constant_apply]
  simp only [Host.reduceAdd, Ideal.hostReduceAdd_def]
  rw [Ideal.hostReduceAdd_total Cert.KernelIdeal.Gen.reducesTo_S8192x1_S_d0_1 (fun b => b.elim0), ValueIdx.constant_apply,
    ValueIdx.sum_idx2]
  refine congrArg (fun s => Ideal.div (Ideal.ofBits .f32 0x00000000#32 + s) (Ideal.ofBits .f32 0x4C800000#32)) ?_
  -- the inner sum over the axis of extent one is its one term
  exact Finset.sum_congr rfl fun a _ => Fin.sum_univ_one _

/-- The kernel program's result, from the output array the pipeline leaves, is the reference's stage for its
    result at the same argument arrays. -/
theorem result_eq (m : (ℓ : Loc Cert.KernelIdeal.nD Cert.KernelIdeal.τ Cert.KernelIdeal.sig) → Buf (Elt Ideal) ℓ) (c : Dev Cert.KernelIdeal.nD) :
    Cert.KernelIdeal.Hand.tailVal (F := Ideal) ((Cert.KernelIdeal.Hand.dats (F := Ideal) m 0 c).arrAt 4 Cert.KernelIdeal.cfg0.N)
      = Cert.ReferenceIdeal.Read.val_main_v19 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  -- both sides are the quotient of (zero plus a sum over the rows) by the number of pairs
  rw [Cert.ReferenceIdeal.RefValue.ref_result, tailVal_apply]
  refine congrArg (fun s => Ideal.div (Ideal.ofBits .f32 0x00000000#32 + s) (Ideal.ofBits .f32 0x4C800000#32)) ?_
  -- row by row: the entry the pipeline wrote back is the row's sum of losses, over the same normalised matrix
  refine Finset.sum_congr rfl fun a _ => ?_
  rw [Cert.KernelIdeal.Hand.arrAt4, en_eq]

end Cert.Proof.Bridge

end
-- ==== Proof.lean ====
/-
  The certificate of the pairwise margin loss: the Pallas kernel's program against its jnp reference.

  Both programs divide each of the 8192 rows of the embedding matrix by its norm clamped below by 1e-8. The
  reference multiplies the normalised matrix by its transpose, turns every one of the 8192 x 8192 similarities into
  a loss (`1 - s` where the two labels agree, `max (s - 0.2) 0` where they differ), and returns the mean. The
  kernel never forms the matrix of losses: on an 8 x 8 grid of 1024 x 1024 tiles it multiplies a row tile by a
  column tile of the normalised matrix (rounded to bf16, which at the ideal values is the identity), reduces the
  tile's losses to one row sum per row, and adds the row sums of a row tile's eight column steps in a 1024 x 1
  accumulator, which it writes out at the eighth; the host then sums the 8192 row sums and divides by the number of
  pairs. Over the extended reals a finite sum may be regrouped freely, so the sum of the row sums is the sum of
  all the losses, and the two results are equal; no finiteness of the inputs is used.

  The frames of the two kernel programs are one proof, written for any float values and laid out in each
  program's namespace: the body's run in its three cases (first, middle and last column step), the accumulator
  tracked from point to point, the normalised matrix dealt to the two windows that read it in two half shares, the
  host stretches before and after the region. The reference's frame is its run with the result dropped. The
  idealization rewrote nothing, so `preserves` has no conjunct.
-/
import proofs.«159711_j34565896798668_1_alg».proof.Defs
import proofs.«159711_j34565896798668_1_alg».proof.Proof.Gen.Kernel
import proofs.«159711_j34565896798668_1_alg».proof.Proof.Gen.KernelIdeal
import proofs.«159711_j34565896798668_1_alg».proof.Proof.Gen.ReferenceIdeal
import proofs.«159711_j34565896798668_1_alg».proof.Proof.Gen.ReferenceIdeal.Run
import proofs.«159711_j34565896798668_1_alg».proof.Proof.Gen.ReferenceIdeal.Read
import proofs.«159711_j34565896798668_1_alg».proof.Proof.Gen.Pre_finite_inputs
import proofs.«159711_j34565896798668_1_alg».proof.Proof.K.Launch
import proofs.«159711_j34565896798668_1_alg».proof.Proof.KI.Launch
import proofs.«159711_j34565896798668_1_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two arguments both programs run to the same result: the kernel's program to the
    quotient of the sum of the row sums its pipeline wrote back, the reference to the quotient of the sum of all the
    losses, which is the same number. -/
theorem algebraic : Cert.algebraic_KernelIdeal_ReferenceIdeal := by
  intro m ρ m' ρ' _ hagree
  refine ⟨fun c => Cert.KernelIdeal.Hand.tailVal (F := Ideal) ((Cert.KernelIdeal.Hand.dats (F := Ideal) m 0 c).arrAt 4 Cert.KernelIdeal.cfg0.N), ?_, ?_⟩
  · exact (θ_run Cert.KernelIdeal.defs _ _).mono (fun _ h c => h c) (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2]
    exact (Cert.Proof.Bridge.result_eq m c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
